-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg12 : FVec F S32x64 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x64 .f32 := Host.absf main_arg12
  let main_cst_20 : FVec F S_ .f32 := constant S_ .f32 0x7F800000#32
  let main_v55 : FVec F S32x64 .f32 := broadcastInDim S32x64 ![] bcast_S_S32x64 main_cst_20
  let main_v56 : IVec S32x64 1 := cmpf .olt main_v54 main_v55
  let main_c_21 : IVec S_ 1 := constantI S_ 1 1#1
  let main_v57 : IVec S_ 1 := (fun x v => Host.reduce IntOp.andi x v reducesTo_S32x64_S_d0_1 h_S_) main_v56 main_c_21
  let main_v58 : IVec S_ 1 := andi main_v53 main_v57
  main_v58

def fn_part2 {F : FTy → Type} [FloatOps F] (main_arg8 : FVec F S64 .f32) (main_arg9 : FVec F S64x64 .f32) (main_arg10 : FVec F S32x64 .f32) (main_arg11 : FVec F S32 .f32) (main_arg12 : FVec F S32x64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S32x64 .f32 := Host.absf main_arg10
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_v48 main_v49 main_v50

def fn_part1 {F : FTy → Type} [FloatOps F] (main_arg5 : FVec F S64 .f32) (main_arg6 : FVec F S64x64 .f32) (main_arg7 : FVec F S64x64 .f32) (main_arg8 : FVec F S64 .f32) (main_arg9 : FVec F S64x64 .f32) (main_arg10 : FVec F S32x64 .f32) (main_arg11 : FVec F S32 .f32) (main_arg12 : FVec F S32x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1600000 32) (main_arg2 : FVec F S64x128 .f32) (main_arg3 : FVec F S64 .f32) (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S32x64 .f32) (main_arg11 : FVec F S32 .f32) (main_arg12 : FVec F S32x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S100000x64 : Shape := ⟨2, ![100000, 64]⟩
abbrev S20000x128 : Shape := ⟨2, ![20000, 128]⟩
abbrev S20000x64 : Shape := ⟨2, ![20000, 64]⟩
abbrev S128x64 : Shape := ⟨2, ![128, 64]⟩
abbrev S1600000x64 : Shape := ⟨2, ![1600000, 64]⟩
abbrev S1x32 : Shape := ⟨2, ![1, 32]⟩
abbrev S100000x32 : Shape := ⟨2, ![100000, 32]⟩
abbrev S20000x32 : Shape := ⟨2, ![20000, 32]⟩
abbrev S64x32 : Shape := ⟨2, ![64, 32]⟩
abbrev S20000 : Shape := ⟨1, ![20000]⟩
abbrev S20000x1 : Shape := ⟨2, ![20000, 1]⟩

abbrev nBuf : Space → Nat
  | .hbm => 83
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S32x64, .f32⟩
  | .hbm, ⟨11, _⟩ => ⟨S32, .f32⟩
  | .hbm, ⟨12, _⟩ => ⟨S32x64, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S1x64, .f32⟩
  | .hbm, ⟨31, _⟩ => ⟨S100000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x64, .f32⟩
  | .hbm, ⟨75, _⟩ => ⟨S_, .f32⟩
  | .hbm, ⟨76, _⟩ => ⟨S100000x64, .f32⟩
  | .hbm, ⟨77, _⟩ => ⟨S1600000x1, .i32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S1x32, .f32⟩
  | .hbm, ⟨82, _⟩ => ⟨S100000x32, .f32⟩
  | .local _ .vmem, ⟨0, _⟩ => ⟨S20000x128, .f32⟩
  | .local _ .vmem, ⟨1, _⟩ => ⟨S20000x128, .f32⟩
  | .local _ .vmem, ⟨2, _⟩ => ⟨S64x128, .f32⟩
  | .local _ .vmem, ⟨3, _⟩ => ⟨S1x64, .f32⟩
  | .local _ .vmem, ⟨4, _⟩ => ⟨S20000x64, .f32⟩
  | .local _ .vmem, ⟨5, _⟩ => ⟨S20000x64, .f32⟩
  | .local _ .vmem, ⟨6, _⟩ => ⟨S20000x64, .f32⟩
  | .local _ .vmem, ⟨7, _⟩ => ⟨S20000x64, .f32⟩
  | .local _ .vmem, ⟨8, _⟩ => ⟨S20000x64, .f32⟩
  | .local _ .vmem, ⟨9, _⟩ => ⟨S20000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S20000x64, .f32⟩
  | .local _ .vmem, ⟨14, _⟩ => ⟨S20000x64, .f32⟩
  | .local _ .vmem, ⟨15, _⟩ => ⟨S20000x64, .f32⟩
  | .local _ .vmem, ⟨16, _⟩ => ⟨S20000x64, .f32⟩
  | .local _ .vmem, ⟨17, _⟩ => ⟨S20000x64, .f32⟩
  | .local _ .vmem, ⟨18, _⟩ => ⟨S20000x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S20000x64, .f32⟩
  | .local _ .vmem, ⟨23, _⟩ => ⟨S20000x64, .f32⟩
  | .local _ .vmem, ⟨24, _⟩ => ⟨S20000x64, .f32⟩
  | .local _ .vmem, ⟨25, _⟩ => ⟨S20000x64, .f32⟩
  | .local _ .vmem, ⟨26, _⟩ => ⟨S20000x64, .f32⟩
  | .local _ .vmem, ⟨27, _⟩ => ⟨S20000x64, .f32⟩
  | .local _ .vmem, ⟨28, _⟩ => ⟨S32x64, .f32⟩
  | .local _ .vmem, ⟨29, _⟩ => ⟨S1x32, .f32⟩
  | .local _ .vmem, ⟨30, _⟩ => ⟨S32x64, .f32⟩
  | .local _ .vmem, ⟨31, _⟩ => ⟨S20000x32, .f32⟩
  | .local _ .vmem, ⟨32, _⟩ => ⟨S20000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S20000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S20000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S20000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S20000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  shapeCasts_S64_S1x64 : S64.ShapeCasts S1x64
  inb_S20000x128_S20000x128_0_0 : ∀ a, (![0, 0] : Fin 2 → Nat) a + S20000x128.size a ≤ S20000x128.size a
  h_S20000x128 : 0 < S20000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  inb_S20000x64_S20000x64_0_0 : ∀ a, (![0, 0] : Fin 2 → Nat) a + S20000x64.size a ≤ S20000x64.size a
  h_S20000x64 : 0 < S20000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S20000x64_S20000x64 : S20000x64.ShapeCasts S20000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  shapeCasts_S32_S1x32 : S32.ShapeCasts S1x32
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S20000x32 : S1x32.Broadcasts S20000x32
  reduces_S20000x32_S20000 : S20000x32.Reduces [1] S20000
  shapeCasts_S20000_S20000x1 : S20000.ShapeCasts S20000x1
  broadcasts_S20000x1_S20000x32 : S20000x1.Broadcasts S20000x32
  inb_S20000x32_S20000x32_0_0 : ∀ a, (![0, 0] : Fin 2 → Nat) a + S20000x32.size a ≤ S20000x32.size a
  h_S20000x32 : 0 < S20000x32.numel
  scatter_S100000_S1600000x1_S1600000_n_0_0_1_wf : ScatterDims.WF S100000 S1600000x1 S1600000 [] [0] [0] 1
  dot_S20000x128_S128x64_S20000x64_1_0_0_1_n_n_wf : DotDims.WF S20000x128 S128x64 S20000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S20000x64_S64x64_S20000x64_1_0_0_1_n_n_wf : DotDims.WF S20000x64 S64x64 S20000x64 [1] [0] [0] [1] [] []
  dot_S20000x64_S64x32_S20000x32_1_0_0_1_n_n_wf : DotDims.WF S20000x64 S64x32 S20000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .f32 = 32 ∨ (Rect.block (s := S100000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x64.size a ≤ S100000x64.size a
  hwx0_3 : ∀ i : grid0.Coords, EltTy.bits .f32 = 32 ∨ (Rect.block (s := S100000x64) S20000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x64.size a ≤ S100000x64.size a
  hwx1_1 : ∀ i : grid1.Coords, EltTy.bits .f32 = 32 ∨ (Rect.block (s := S100000x64) S20000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S20000x64.size a ≤ S100000x64.size a
  hwx1_5 : ∀ i : grid1.Coords, EltTy.bits .f32 = 32 ∨ (Rect.block (s := S100000x64) S20000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S100000x64.size a
  hwx2_0 : ∀ i : grid2.Coords, EltTy.bits .f32 = 32 ∨ (Rect.block (s := S100000x64) S20000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S20000x64.size a ≤ S100000x64.size a
  hwx2_1 : ∀ i : grid2.Coords, EltTy.bits .f32 = 32 ∨ (Rect.block (s := S100000x64) S20000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S20000x64.size a ≤ S100000x64.size a
  hwx2_5 : ∀ i : grid2.Coords, EltTy.bits .f32 = 32 ∨ (Rect.block (s := S100000x64) S20000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S100000x64.size a
  hwx3_0 : ∀ i : grid3.Coords, EltTy.bits .f32 = 32 ∨ (Rect.block (s := S100000x64) S20000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S20000x64.size a ≤ S100000x64.size a
  hwx3_1 : ∀ i : grid3.Coords, EltTy.bits .f32 = 32 ∨ (Rect.block (s := S100000x64) S20000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x64.size a ≤ S32x64.size a
  hwx3_2 : ∀ i : grid3.Coords, EltTy.bits .f32 = 32 ∨ (Rect.block (s := S32x64) S32x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x64.size a ≤ S32x64.size a
  hwx3_4 : ∀ i : grid3.Coords, EltTy.bits .f32 = 32 ∨ (Rect.block (s := S32x64) S32x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S20000x32.size a ≤ S100000x32.size a
  hwx3_5 : ∀ i : grid3.Coords, EltTy.bits .f32 = 32 ∨ (Rect.block (s := S100000x32) S20000x32.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def dot_S20000x64_S64x32_S20000x32_1_0_0_1_n_n : DotDims S20000x64 S64x32 S20000x32 where
  lhsContracting := [1]
  rhsContracting := [0]
  lhsNonContracting := [0]
  rhsNonContracting := [1]
  lhsBatch := []
  rhsBatch := []
  wf := dot_S20000x64_S64x32_S20000x32_1_0_0_1_n_n_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S20000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S20000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S20000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S20000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S20000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S20000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S32x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S32x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S20000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S128x64 : Shape := ⟨2, ![128, 64]⟩
abbrev S100000x64 : Shape := ⟨2, ![100000, 64]⟩
abbrev S1x64 : Shape := ⟨2, ![1, 64]⟩
abbrev S1600000x64 : Shape := ⟨2, ![1600000, 64]⟩
abbrev S64x32 : Shape := ⟨2, ![64, 32]⟩
abbrev S100000x32 : Shape := ⟨2, ![100000, 32]⟩
abbrev S1x32 : Shape := ⟨2, ![1, 32]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S32x64, .f32⟩
  | .hbm, ⟨11, _⟩ => ⟨S32, .f32⟩
  | .hbm, ⟨12, _⟩ => ⟨S32x64, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S128x64, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S64x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S64x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S_, .f32⟩
  | .hbm, ⟨71, _⟩ => ⟨S100000x64, .f32⟩
  | .hbm, ⟨72, _⟩ => ⟨S1600000x1, .i32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S64x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S64x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S100000x64, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x64, .f32⟩
  | .hbm, ⟨96, _⟩ => ⟨S_, .f32⟩
  | .hbm, ⟨97, _⟩ => ⟨S100000x64, .f32⟩
  | .hbm, ⟨98, _⟩ => ⟨S1600000x1, .i32⟩
  | .hbm, ⟨99, _⟩ => ⟨S100000x64, .f32⟩
  | .hbm, ⟨100, _⟩ => ⟨S100000x64, .f32⟩
  | .hbm, ⟨101, _⟩ => ⟨S100000x64, .f32⟩
  | .hbm, ⟨102, _⟩ => ⟨S64x32, .f32⟩
  | .hbm, ⟨103, _⟩ => ⟨S100000x32, .f32⟩
  | .hbm, ⟨104, _⟩ => ⟨S1x32, .f32⟩
  | .hbm, ⟨105, _⟩ => ⟨S100000x32, .f32⟩
  | .hbm, ⟨106, _⟩ => ⟨S100000x32, .f32⟩
  | .hbm, ⟨107, _⟩ => ⟨S64x32, .f32⟩
  | .hbm, ⟨108, _⟩ => ⟨S100000x32, .f32⟩
  | .hbm, ⟨109, _⟩ => ⟨S100000x32, .f32⟩
  | .hbm, ⟨110, _⟩ => ⟨S100000x32, .f32⟩
  | .hbm, ⟨111, _⟩ => ⟨S_, .f32⟩
  | .hbm, ⟨112, _⟩ => ⟨S100000, .f32⟩
  | .hbm, ⟨113, _⟩ => ⟨S100000x1, .f32⟩
  | .hbm, ⟨114, _⟩ => ⟨S100000x1, .f32⟩
  | .hbm, ⟨115, _⟩ => ⟨S_, .f32⟩
  | .hbm, ⟨116, _⟩ => ⟨S100000x1, .f32⟩
  | .hbm, ⟨117, _⟩ => ⟨S100000x1, .f32⟩
  | .hbm, ⟨118, _⟩ => ⟨S100000x32, .f32⟩
  | .hbm, ⟨119, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call0_cst : Ref sig .tc := ⟨.hbm, 58, rfl⟩
abbrev main_call0_v0 : Ref sig .tc := ⟨.hbm, 59, rfl⟩
abbrev main_v38 : Ref sig .tc := ⟨.hbm, 60, rfl⟩
abbrev main_c_5 : Ref sig .tc := ⟨.hbm, 61, rfl⟩
abbrev main_v39 : Ref sig .tc := ⟨.hbm, 62, rfl⟩
abbrev main_v40 : Ref sig .tc := ⟨.hbm, 63, rfl⟩
abbrev main_c_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_8 : Ref sig .tc := ⟨.hbm, 87, rfl⟩
abbrev main_v60 : Ref sig .tc := ⟨.hbm, 88, rfl⟩
abbrev main_v61 : Ref sig .tc := ⟨.hbm, 89, rfl⟩
abbrev main_c_9 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_10 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_v0 : Ref sig .tc := ⟨.hbm, 110, rfl⟩
abbrev main_call2_cst : Ref sig .tc := ⟨.hbm, 111, rfl⟩
abbrev main_call2_v1 : Ref sig .tc := ⟨.hbm, 112, rfl⟩
abbrev main_call2_v2 : Ref sig .tc := ⟨.hbm, 113, rfl⟩
abbrev main_v80 : Ref sig .tc := ⟨.hbm, 114, rfl⟩
abbrev main_cst_11 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.LibPlainDot.lean ====
/-
  A plain two-dimensional matrix product read at an entry.

  For a dot whose dimension numbers are those of `rows × contraction` times `contraction × columns` — left
  contracting axis 1, right contracting axis 0, the remaining left axis then the remaining right axis as the result's
  axes, no batch axis — the left operand's index at result entry `(p, q)` and contraction position `k` is `(p, k)`,
  the right operand's is `(k, q)`. So, on the extended reals, a kernel's `matmul` into the zero accumulator and a
  host `dot_general` are both the textbook sum `∑ k, l (p, k) * r (k, q)` over `k : Fin K`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {R K C : ℕ} (d : DotDims (⟨2, ![R, K]⟩ : Shape) (⟨2, ![K, C]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction shape has one axis, of extent `K`. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(p, k)` and `(k, q)`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![R, K]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 k q := by
    funext a; apply Fin.ext
    match a with
    | ⟨0, _⟩ => exact (rhs_row d hrc _ _).trans hk
    | ⟨1, _⟩ => exact rhs_col d hlb hrb hln hrn _ _
  rw [el, er]

/-- A kernel's matrix product into the zero accumulator, at an entry, on the extended reals. -/
theorem matmul_zero_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal (⟨2, ![R, K]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 p k) * r (ix2 k q) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral d prec sched l r (ix2 p q) = ∑ k : Fin K, l (ix2 p k) * r (ix2 k q) :=
  (Ideal.dotGeneral_apply d prec sched l r (ix2 p q)).trans (sum_contr d hlc hrc hln hrn hlb hrb l r p q)

end Cert.PlainDot

end
-- ==== Proof.Rows.lean ====
/-
  The layers of a three-layer mean-aggregating graph network, read one output entry at a time on the extended reals.

  Every dense layer here is row-local: output row `p` depends on row `p` of its row-indexed operands only. So a layer is
  described by what it does to ONE row — `affineRow` (a row times a transposed weight matrix, plus a bias), `combineRow`
  (the aggregated neighbours' row and the node's own row, each through its own weights, and a bias), `normalizeRow` (a row
  divided by its Euclidean length, the length kept above a floor) — and each spelling of a layer, the tiled one over row
  blocks with operands cast to a narrower format (the identity on the extended reals) and the whole-array one, is shown to
  produce exactly these entries. No law of arithmetic is used beyond reading the two spellings: the sums are the same sums,
  term by term.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«150510_j50757923504416_1_alg».proof.Proof.LibPlainDot

noncomputable section

namespace Cert.Sage

open Idealize.ShloMosaic Idealize.ShloMosaic.ValueIdx

variable {R K C : ℕ}

/-! ## The layers, one entry at a time -/

/-- Row `p` of a matrix. -/
def row (x : (⟨2, ![R, K]⟩ : Shape).Idx → EReal) (p : Fin R) : Fin K → EReal := fun j => x (ix2 p j)

/-- The inner product of a vector with row `q` of a matrix: entry `q` of the vector times the matrix transposed. -/
def dotRow (v : Fin K → EReal) (W : (⟨2, ![C, K]⟩ : Shape).Idx → EReal) (q : Fin C) : EReal := ∑ j : Fin K, v j * W (ix2 q j)

/-- Entry `q` of `v · Wᵀ + b`. -/
def affineRow (v : Fin K → EReal) (W : (⟨2, ![C, K]⟩ : Shape).Idx → EReal) (b : Fin C → EReal) (q : Fin C) : EReal :=
  dotRow v W q + b q

/-- Entry `q` of `(a · Wlᵀ + b) + s · Wrᵀ`: the aggregated row `a` and the node's own row `s`, combined. -/
def combineRow (a s : Fin K → EReal) (Wl : (⟨2, ![C, K]⟩ : Shape).Idx → EReal) (b : Fin C → EReal)
    (Wr : (⟨2, ![C, K]⟩ : Shape).Idx → EReal) (q : Fin C) : EReal :=
  affineRow a Wl b q + dotRow s Wr q

/-- Entry `q` of a row divided by its Euclidean length, the length replaced by `e` where it is smaller. -/
def normalizeRow (h : Fin C → EReal) (e : EReal) (q : Fin C) : EReal :=
  Ideal.div (h q) (max (Ideal.sqrt (∑ j : Fin C, h j * h j)) e)

/-! ## The layers as whole arrays -/

/-- The matrix with entry `f p q` at `(p, q)`. -/
def ofEntries (f : Fin R → Fin C → EReal) : (⟨2, ![R, C]⟩ : Shape).Idx → EReal := fun i => f (i 0) (i 1)

theorem ofEntries_apply (f : Fin R → Fin C → EReal) (p : Fin R) (q : Fin C) : ofEntries f (ix2 p q) = f p q := rfl

/-- `x · Wᵀ + b`, every row. -/
def affineLayer (x : (⟨2, ![R, K]⟩ : Shape).Idx → EReal) (W : (⟨2, ![C, K]⟩ : Shape).Idx → EReal) (b : Fin C → EReal) :
    (⟨2, ![R, C]⟩ : Shape).Idx → EReal :=
  ofEntries fun p q => affineRow (row x p) W b q

/-- `max ((a · Wlᵀ + b) + s · Wrᵀ) z`, every row: a combine layer followed by the activation `max · z`. -/
def activatedLayer (a s : (⟨2, ![R, K]⟩ : Shape).Idx → EReal) (Wl : (⟨2, ![C, K]⟩ : Shape).Idx → EReal) (b : Fin C → EReal)
    (Wr : (⟨2, ![C, K]⟩ : Shape).Idx → EReal) (z : EReal) : (⟨2, ![R, C]⟩ : Shape).Idx → EReal :=
  ofEntries fun p q => max (combineRow (row a p) (row s p) Wl b Wr q) z

/-- The last combine layer, every row divided by its Euclidean length (kept no smaller than `e`). -/
def normalizedLayer (a s : (⟨2, ![R, K]⟩ : Shape).Idx → EReal) (Wl : (⟨2, ![C, K]⟩ : Shape).Idx → EReal) (b : Fin C → EReal)
    (Wr : (⟨2, ![C, K]⟩ : Shape).Idx → EReal) (e : EReal) : (⟨2, ![R, C]⟩ : Shape).Idx → EReal :=
  ofEntries fun p q => normalizeRow (fun q' => combineRow (row a p) (row s p) Wl b Wr q') e q

/-! ## Reading a row vector laid out as a one-row or one-column matrix -/

/-- A `[1, C]` array spread over `R` rows reads, at `(p, q)`, its one row at `q`. -/
theorem bcastRow_apply {α : Type} (v : (⟨2, ![1, C]⟩ : Shape).Idx → α)
    (h : (⟨2, ![1, C]⟩ : Shape).BroadcastsInDim (⟨2, ![R, C]⟩ : Shape) ![0, 1]) (p : Fin R) (q : Fin C) :
    broadcastInDim (⟨2, ![R, C]⟩ : Shape) ![0, 1] h v (ix2 p q) = v (ix2 (0 : Fin 1) q) :=
  broadcastInDim_apply _ h v (ix2 p q) (ix2 (0 : Fin 1) q) fun a => match a with
    | ⟨0, _⟩ => by show (0 : ℕ) = if (1 : ℕ) = 1 then 0 else p.val; rw [if_pos rfl]
    | ⟨1, _⟩ => by
      show q.val = if C = 1 then 0 else q.val
      split
      · have := q.isLt; omega
      · rfl

/-- A `[C]` array laid out as the one row of a `[1, C]` array reads, at `(0, q)`, its entry `q`. -/
theorem vecAsRow_apply {α : Type} (b : (⟨1, ![C]⟩ : Shape).Idx → α)
    (h : (⟨1, ![C]⟩ : Shape).BroadcastsInDim (⟨2, ![1, C]⟩ : Shape) ![1]) (u : Fin 1) (q : Fin C) :
    broadcastInDim (⟨2, ![1, C]⟩ : Shape) ![1] h b (ix2 u q) = b (ix1 q) :=
  broadcastInDim_apply _ h b (ix2 u q) (ix1 q) fun a => match a with
    | ⟨0, _⟩ => by
      show q.val = if C = 1 then 0 else q.val
      split
      · have := q.isLt; omega
      · rfl

/-- An `[R, 1]` column spread over `C` columns reads, at `(p, q)`, the column's entry `p`. -/
theorem bcastCol_apply {α : Type} (v : (⟨2, ![R, 1]⟩ : Shape).Idx → α)
    (h : (⟨2, ![R, 1]⟩ : Shape).Broadcasts (⟨2, ![R, C]⟩ : Shape)) (p : Fin R) (q : Fin C) :
    broadcastTo (⟨2, ![R, C]⟩ : Shape) v h (ix2 p q) = v (ix2 p (0 : Fin 1)) :=
  broadcastTo_apply v h (ix2 p q) (ix2 p (0 : Fin 1)) fun a => match a with
    | ⟨0, _⟩ => by
      show p.val = if R = 1 then 0 else p.val
      split
      · have := p.isLt; omega
      · rfl
    | ⟨1, _⟩ => by show (0 : ℕ) = if (1 : ℕ) = 1 then 0 else q.val; rw [if_pos rfl]

/-- The same column spread by the host's spelling. -/
theorem bcastColIn_apply {α : Type} (v : (⟨2, ![R, 1]⟩ : Shape).Idx → α)
    (h : (⟨2, ![R, 1]⟩ : Shape).BroadcastsInDim (⟨2, ![R, C]⟩ : Shape) ![0, 1]) (p : Fin R) (q : Fin C) :
    broadcastInDim (⟨2, ![R, C]⟩ : Shape) ![0, 1] h v (ix2 p q) = v (ix2 p (0 : Fin 1)) :=
  broadcastInDim_apply _ h v (ix2 p q) (ix2 p (0 : Fin 1)) fun a => match a with
    | ⟨0, _⟩ => by
      show p.val = if R = 1 then 0 else p.val
      split
      · have := p.isLt; omega
      · rfl
    | ⟨1, _⟩ => by show (0 : ℕ) = if (1 : ℕ) = 1 then 0 else q.val; rw [if_pos rfl]

/-- An `[R]` array recast as an `[R, 1]` column reads, at `(p, 0)`, its entry `p`. -/
theorem vecAsColCast_apply {α : Type} (x : (⟨1, ![R]⟩ : Shape).Idx → α)
    (h : (⟨1, ![R]⟩ : Shape).ShapeCasts (⟨2, ![R, 1]⟩ : Shape)) (p : Fin R) (u : Fin 1) :
    shapeCast (⟨2, ![R, 1]⟩ : Shape) x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The same column made by the host's spelling. -/
theorem vecAsColIn_apply {α : Type} (x : (⟨1, ![R]⟩ : Shape).Idx → α)
    (h : (⟨1, ![R]⟩ : Shape).BroadcastsInDim (⟨2, ![R, 1]⟩ : Shape) ![0]) (p : Fin R) (u : Fin 1) :
    broadcastInDim (⟨2, ![R, 1]⟩ : Shape) ![0] h x (ix2 p u) = x (ix1 p) :=
  broadcastInDim_apply _ h x (ix2 p u) (ix1 p) fun a => match a with
    | ⟨0, _⟩ => by
      show p.val = if R = 1 then 0 else p.val
      split
      · have := p.isLt; omega
      · rfl

/-- A scalar spread over any shape reads the scalar everywhere. -/
theorem bcastScalar_apply {α : Type} {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun a => a.elim0

/-- The index over `(p)` with `k` put back on the summed column axis is `(p, k)`. -/
theorem lift_row (hr : (⟨2, ![R, C]⟩ : Shape).Reduces [1] (⟨1, ![R]⟩ : Shape)) (p : Fin R) (k : Fin C) :
    hr.lift (ix1 p) k = ix2 p k := by
  funext c
  apply Fin.ext
  match c with
  | ⟨0, _⟩ => rfl
  | ⟨1, _⟩ => rfl

/-! ## The tiled spelling: operands cast to a narrower format, the weight transposed, a product into the zero accumulator -/

section Products

variable (d : DotDims (⟨2, ![R, K]⟩ : Shape) (⟨2, ![K, C]⟩ : Shape) (⟨2, ![R, C]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The product of a block with a transposed weight matrix, both cast to the narrower format, at `(p, q)`: row `p` of
    the block against row `q` of the weights. -/
theorem castProduct_apply (x : FVec Ideal (⟨2, ![R, K]⟩ : Shape) .f32) (W : FVec Ideal (⟨2, ![C, K]⟩ : Shape) .f32)
    (hb : FTy.bits .bf16 < FTy.bits .f32) (ht : (⟨2, ![C, K]⟩ : Shape).Transposes [1, 0] (⟨2, ![K, C]⟩ : Shape))
    (p : Fin R) (q : Fin C) :
    matmul d none (truncf .bf16 x hb) (transpose (⟨2, ![K, C]⟩ : Shape) [1, 0] (truncf .bf16 W hb) ht)
        (constant (⟨2, ![R, C]⟩ : Shape) .f32 0x00000000#32) (ix2 p q)
      = dotRow (row x p) W q :=
  (PlainDot.matmul_zero_apply d hlc hrc hln hrn hlb hrb none _ _ p q).trans
    (Finset.sum_congr rfl fun j _ => congrArg (_ * ·) (transpose_ix2_apply _ ht j q))

/-- The tiled affine layer at `(p, q)`. -/
theorem tiledAffine_apply (x : FVec Ideal (⟨2, ![R, K]⟩ : Shape) .f32) (W : FVec Ideal (⟨2, ![C, K]⟩ : Shape) .f32)
    (b : FVec Ideal (⟨2, ![1, C]⟩ : Shape) .f32)
    (hb : FTy.bits .bf16 < FTy.bits .f32) (ht : (⟨2, ![C, K]⟩ : Shape).Transposes [1, 0] (⟨2, ![K, C]⟩ : Shape))
    (hs : (⟨2, ![1, C]⟩ : Shape).ShapeCasts (⟨2, ![1, C]⟩ : Shape)) (hbr : (⟨2, ![1, C]⟩ : Shape).Broadcasts (⟨2, ![R, C]⟩ : Shape))
    (p : Fin R) (q : Fin C) :
    addf (matmul d none (truncf .bf16 x hb) (transpose (⟨2, ![K, C]⟩ : Shape) [1, 0] (truncf .bf16 W hb) ht)
          (constant (⟨2, ![R, C]⟩ : Shape) .f32 0x00000000#32))
        (broadcastTo (⟨2, ![R, C]⟩ : Shape) (shapeCast (⟨2, ![1, C]⟩ : Shape) b hs) hbr) (ix2 p q)
      = affineRow (row x p) W (fun q => b (ix2 (0 : Fin 1) q)) q :=
  congrArg₂ (· + ·) (castProduct_apply d hlc hrc hln hrn hlb hrb x W hb ht p q)
    ((broadcastTo_1b_ab_apply _ hbr p q).trans (congrFun (shapeCast_self b hs) _))

/-- The tiled combine layer at `(p, q)`, before any activation. -/
theorem tiledCombine_apply (a s : FVec Ideal (⟨2, ![R, K]⟩ : Shape) .f32) (Wl Wr : FVec Ideal (⟨2, ![C, K]⟩ : Shape) .f32)
    (b : FVec Ideal (⟨2, ![1, C]⟩ : Shape) .f32)
    (hb : FTy.bits .bf16 < FTy.bits .f32) (ht : (⟨2, ![C, K]⟩ : Shape).Transposes [1, 0] (⟨2, ![K, C]⟩ : Shape))
    (hs : (⟨2, ![1, C]⟩ : Shape).ShapeCasts (⟨2, ![1, C]⟩ : Shape)) (hbr : (⟨2, ![1, C]⟩ : Shape).Broadcasts (⟨2, ![R, C]⟩ : Shape))
    (hsx : (⟨2, ![R, K]⟩ : Shape).ShapeCasts (⟨2, ![R, K]⟩ : Shape)) (p : Fin R) (q : Fin C) :
    addf (addf (matmul d none (truncf .bf16 (shapeCast (⟨2, ![R, K]⟩ : Shape) a hsx) hb)
              (transpose (⟨2, ![K, C]⟩ : Shape) [1, 0] (truncf .bf16 Wl hb) ht) (constant (⟨2, ![R, C]⟩ : Shape) .f32 0x00000000#32))
            (broadcastTo (⟨2, ![R, C]⟩ : Shape) (shapeCast (⟨2, ![1, C]⟩ : Shape) b hs) hbr))
        (matmul d none (truncf .bf16 (shapeCast (⟨2, ![R, K]⟩ : Shape) s hsx) hb)
          (transpose (⟨2, ![K, C]⟩ : Shape) [1, 0] (truncf .bf16 Wr hb) ht) (constant (⟨2, ![R, C]⟩ : Shape) .f32 0x00000000#32)) (ix2 p q)
      = combineRow (row a p) (row s p) Wl (fun q => b (ix2 (0 : Fin 1) q)) Wr q := by
  rw [shapeCast_self a hsx, shapeCast_self s hsx]
  exact congrArg₂ (· + ·) (tiledAffine_apply d hlc hrc hln hrn hlb hrb a Wl b hb ht hs hbr p q)
    (castProduct_apply d hlc hrc hln hrn hlb hrb s Wr hb ht p q)

/-! ## The whole-array spelling: the host's product with the transposed weight -/

/-- The host's product of an array with a transposed weight matrix at `(p, q)`. -/
theorem hostProduct_apply (x : FVec Ideal (⟨2, ![R, K]⟩ : Shape) .f32) (W : FVec Ideal (⟨2, ![C, K]⟩ : Shape) .f32)
    (ht : (⟨2, ![C, K]⟩ : Shape).Transposes [1, 0] (⟨2, ![K, C]⟩ : Shape)) (p : Fin R) (q : Fin C) :
    Host.dotGeneral d none x (transpose (⟨2, ![K, C]⟩ : Shape) [1, 0] W ht) (ix2 p q) = dotRow (row x p) W q :=
  (PlainDot.dotGeneral_apply d hlc hrc hln hrn hlb hrb none .single _ _ p q).trans
    (Finset.sum_congr rfl fun j _ => congrArg (_ * ·) (transpose_ix2_apply _ ht j q))

/-- The whole-array affine layer at `(p, q)`. -/
theorem hostAffine_apply (x : FVec Ideal (⟨2, ![R, K]⟩ : Shape) .f32) (W : FVec Ideal (⟨2, ![C, K]⟩ : Shape) .f32)
    (b : FVec Ideal (⟨1, ![C]⟩ : Shape) .f32)
    (ht : (⟨2, ![C, K]⟩ : Shape).Transposes [1, 0] (⟨2, ![K, C]⟩ : Shape))
    (h0 : (⟨1, ![C]⟩ : Shape).BroadcastsInDim (⟨2, ![1, C]⟩ : Shape) ![1])
    (h1 : (⟨2, ![1, C]⟩ : Shape).BroadcastsInDim (⟨2, ![R, C]⟩ : Shape) ![0, 1]) (p : Fin R) (q : Fin C) :
    addf (Host.dotGeneral d none x (transpose (⟨2, ![K, C]⟩ : Shape) [1, 0] W ht))
        (broadcastInDim (⟨2, ![R, C]⟩ : Shape) ![0, 1] h1 (broadcastInDim (⟨2, ![1, C]⟩ : Shape) ![1] h0 b)) (ix2 p q)
      = affineRow (row x p) W (fun q => b (ix1 q)) q :=
  congrArg₂ (· + ·) (hostProduct_apply d hlc hrc hln hrn hlb hrb x W ht p q)
    ((bcastRow_apply _ h1 p q).trans (vecAsRow_apply b h0 0 q))

/-- The whole-array combine layer at `(p, q)`, before any activation. -/
theorem hostCombine_apply (a s : FVec Ideal (⟨2, ![R, K]⟩ : Shape) .f32) (Wl Wr : FVec Ideal (⟨2, ![C, K]⟩ : Shape) .f32)
    (b : FVec Ideal (⟨1, ![C]⟩ : Shape) .f32)
    (ht : (⟨2, ![C, K]⟩ : Shape).Transposes [1, 0] (⟨2, ![K, C]⟩ : Shape))
    (h0 : (⟨1, ![C]⟩ : Shape).BroadcastsInDim (⟨2, ![1, C]⟩ : Shape) ![1])
    (h1 : (⟨2, ![1, C]⟩ : Shape).BroadcastsInDim (⟨2, ![R, C]⟩ : Shape) ![0, 1]) (p : Fin R) (q : Fin C) :
    addf (addf (Host.dotGeneral d none a (transpose (⟨2, ![K, C]⟩ : Shape) [1, 0] Wl ht))
            (broadcastInDim (⟨2, ![R, C]⟩ : Shape) ![0, 1] h1 (broadcastInDim (⟨2, ![1, C]⟩ : Shape) ![1] h0 b)))
        (Host.dotGeneral d none s (transpose (⟨2, ![K, C]⟩ : Shape) [1, 0] Wr ht)) (ix2 p q)
      = combineRow (row a p) (row s p) Wl (fun q => b (ix1 q)) Wr q :=
  congrArg₂ (· + ·) (hostAffine_apply d hlc hrc hln hrn hlb hrb a Wl b ht h0 h1 p q)
    (hostProduct_apply d hlc hrc hln hrn hlb hrb s Wr ht p q)

end Products

/-! ## The row normalization, in both spellings -/

/-- The tiled normalization at `(p, q)`: the lane sum of the squares, its root as a column, the floor, the quotient. -/
theorem tiledNormalize_apply (h : FVec Ideal (⟨2, ![R, C]⟩ : Shape) .f32) (e : EReal)
    (hr : (⟨2, ![R, C]⟩ : Shape).Reduces [1] (⟨1, ![R]⟩ : Shape)) (hφ : FKind.Formats .f32)
    (hacc : (0x00000000#32 : BitVec (FTy.bits .f32)) = FKind.add.neutral .f32 hφ)
    (hsc : (⟨1, ![R]⟩ : Shape).ShapeCasts (⟨2, ![R, 1]⟩ : Shape)) (hbr : (⟨2, ![R, 1]⟩ : Shape).Broadcasts (⟨2, ![R, C]⟩ : Shape))
    (p : Fin R) (q : Fin C) :
    divf h (broadcastTo (⟨2, ![R, C]⟩ : Shape)
        (maximumf (sqrt (shapeCast (⟨2, ![R, 1]⟩ : Shape)
            (multiReduction .add [1] (⟨1, ![R]⟩ : Shape) (mulf h h) 0x00000000#32 hr hφ hacc) hsc))
          (broadcast (⟨2, ![R, 1]⟩ : Shape) e)) hbr) (ix2 p q)
      = normalizeRow (row h p) e q := by
  show Ideal.div (h (ix2 p q)) _ = Ideal.div (h (ix2 p q)) _
  refine congrArg (Ideal.div (h (ix2 p q))) ?_
  refine (bcastCol_apply _ hbr p q).trans ?_
  show max (Ideal.sqrt _) e = max (Ideal.sqrt _) e
  refine congrArg (fun z => max (Ideal.sqrt z) e) ?_
  refine (vecAsColCast_apply _ hsc p 0).trans ?_
  refine (Ideal.multiReduction_add_single (mulf h h) 0x00000000#32 hr hφ hacc (ix1 p)).trans ?_
  exact Finset.sum_congr rfl fun k _ => congrArg (fun i => h i * h i) (lift_row hr p k)

/-- The whole-array normalization at `(p, q)`: the host's sum of the squares from zero, its root, the floor, the quotient. -/
theorem hostNormalize_apply (h : FVec Ideal (⟨2, ![R, C]⟩ : Shape) .f32) (eb : BitVec (FTy.bits .f32))
    (hr' : (⟨2, ![R, C]⟩ : Shape).ReducesTo [1] (⟨1, ![R]⟩ : Shape)) (hr : (⟨2, ![R, C]⟩ : Shape).Reduces [1] (⟨1, ![R]⟩ : Shape))
    (hu : 0 < (⟨0, ![]⟩ : Shape).numel)
    (hc : (⟨1, ![R]⟩ : Shape).BroadcastsInDim (⟨2, ![R, 1]⟩ : Shape) ![0])
    (he : (⟨0, ![]⟩ : Shape).BroadcastsInDim (⟨2, ![R, 1]⟩ : Shape) ![])
    (hbr : (⟨2, ![R, 1]⟩ : Shape).BroadcastsInDim (⟨2, ![R, C]⟩ : Shape) ![0, 1]) (p : Fin R) (q : Fin C) :
    Host.divf h (broadcastInDim (⟨2, ![R, C]⟩ : Shape) ![0, 1] hbr
        (maximumf (Host.sqrt (broadcastInDim (⟨2, ![R, 1]⟩ : Shape) ![0] hc
            (Host.reduceAdd (mulf h h) (constant (F := Ideal) (⟨0, ![]⟩ : Shape) .f32 0x00000000#32) hr' hu)))
          (broadcastInDim (⟨2, ![R, 1]⟩ : Shape) ![] he (constant (F := Ideal) (⟨0, ![]⟩ : Shape) .f32 eb)))) (ix2 p q)
      = normalizeRow (row h p) (Ideal.ofBits .f32 eb) q := by
  show Ideal.div (h (ix2 p q)) _ = Ideal.div (h (ix2 p q)) _
  refine congrArg (Ideal.div (h (ix2 p q))) ?_
  refine (bcastColIn_apply _ hbr p q).trans ?_
  show max (Ideal.sqrt _) _ = max (Ideal.sqrt _) _
  refine congrArg₂ (fun z w => max (Ideal.sqrt z) w) ?_ (bcastScalar_apply _ he _)
  refine (vecAsColIn_apply _ hc p 0).trans ?_
  refine (Ideal.hostReduceAdd_single hr' hr (mulf h h) _ (ix1 p)).trans ?_
  show Ideal.ofBits .f32 0x00000000#32 + _ = _
  rw [Ideal.ofBits_zero_f32, zero_add]
  exact Finset.sum_congr rfl fun k _ => congrArg (fun i => h i * h i) (lift_row hr p k)

end Cert.Sage

end
-- ==== Proof.Layer0.lean ====
/-
  The first dense layer, as the tiled program computes it: the node features times the transposed weight matrix, plus the
  bias, one block of 20000 rows per grid point.

  At point `t` the body sees rows `t · 20000 … t · 20000 + 19999` of the feature array, the whole weight matrix and the
  whole one-row bias, and stores one 20000 × 64 block: entry `(p, q)` of it is row `p` of the input block against row `q`
  of the weights, plus the bias at `q` — so it is entry `(t · 20000 + p, q)` of the affine layer of the whole arrays. The
  five blocks tile the 100000 rows, so the array the region leaves IS that layer of the arrays it found.
-/
import proofs.«150510_j50757923504416_1_alg».proof.Proof.Gen.KernelIdeal.Frame
import proofs.«150510_j50757923504416_1_alg».proof.Proof.Rows
import Idealize.ShloMosaic.Lib.Pipeline.Value

set_option maxRecDepth 16384

noncomputable section

namespace Cert.KernelIdeal.Layer0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offset, as a function. -/
theorem hz : (![0, 0] : Fin 2 → Nat) = fun _ => 0 := funext fun a => by fin_cases a <;> rfl

/-- The block index maps, decided over the five points: the features and the output move down one block of rows per point;
    the weights and the bias stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of block `t` is row `t · 20000 + p` of the array. -/
def gRow (t : Fin cfg0.N) (p : Fin 20000) : Fin 100000 :=
  ⟨t.val * 20000 + p.val, by have := t.isLt; have hN : cfg0.N = 5 := N_0; have := p.isLt; omega⟩

/-- Entry `(p, k)` of the feature block at point `t` sits at `(t · 20000 + p, k)` of the feature array. -/
theorem emb_x (t : Fin cfg0.N) (p : Fin 20000) (k : Fin 128) :
    ((cfg0.win 0).blk t).view.emb (ix2 p k) = ix2 (gRow t p) k := by
  obtain ⟨e0, e1, -⟩ := idx_facts t
  funext a; apply Fin.ext
  match a with
  | ⟨0, _⟩ => show win0_0.index t (0 : Fin 2) * 20000 + 1 * p.val = t.val * 20000 + p.val; omega
  | ⟨1, _⟩ => show win0_0.index t (1 : Fin 2) * 128 + 1 * k.val = k.val; omega

/-- The entries of the body's stored value: row `p` of its feature block against row `q` of the weights, plus the bias at `q`. -/
theorem pay_apply (x0 : Vec Ideal S20000x128 .f32) (x1 : Vec Ideal S64x128 .f32) (x2 : Vec Ideal S1x64 .f32) (p : Fin 20000) (q : Fin 64) :
    k0_pay1 (F := Ideal) x0 x1 x2 (ix2 p q) = Sage.affineRow (Sage.row x0 p) x1 (fun q => x2 (ix2 (0 : Fin 1) q)) q := by
  unfold k0_pay1
  exact Sage.tiledAffine_apply dot_S20000x128_S128x64_S20000x64_1_0_0_1_n_n rfl rfl rfl rfl rfl rfl x0 x1 x2 _ _ _ _ p q

/-- The input blocks at point `t`, at their literal types. -/
abbrev xb (c : Dev nD) (t : Fin cfg0.N) : Vec Ideal S20000x128 .f32 := iblk0 V c 0 t
abbrev wb (c : Dev nD) (t : Fin cfg0.N) : Vec Ideal S64x128 .f32 := iblk0 V c 1 t
abbrev bb (c : Dev nD) (t : Fin cfg0.N) : Vec Ideal S1x64 .f32 := iblk0 V c 2 t

/-- The weight block is the array itself: entry `(a, k)` sits at `(a, k)`. -/
theorem emb_w (t : Fin cfg0.N) (a : Fin 64) (k : Fin 128) :
    ((cfg0.win 1).blk t).view.emb (ix2 a k) = ix2 a k := by
  obtain ⟨-, -, e2, e3, -⟩ := idx_facts t
  funext d; apply Fin.ext
  match d with
  | ⟨0, _⟩ => show win0_1.index t (0 : Fin 2) * 64 + 1 * a.val = a.val; omega
  | ⟨1, _⟩ => show win0_1.index t (1 : Fin 2) * 128 + 1 * k.val = k.val; omega

/-- The bias block is the one-row array itself. -/
theorem emb_b (t : Fin cfg0.N) (u : Fin 1) (q : Fin 64) :
    ((cfg0.win 2).blk t).view.emb (ix2 u q) = ix2 u q := by
  obtain ⟨-, -, -, -, e4, e5, -⟩ := idx_facts t
  funext d; apply Fin.ext
  match d with
  | ⟨0, _⟩ => show win0_2.index t (0 : Fin 2) * 1 + 1 * u.val = u.val; omega
  | ⟨1, _⟩ => show win0_2.index t (1 : Fin 2) * 64 + 1 * q.val = q.val; omega

/-- Entry `(p, q)` of the output block at point `t` sits at `(t · 20000 + p, q)` of the output array. -/
theorem emb_o (t : Fin cfg0.N) (p : Fin 20000) (q : Fin 64) :
    ((cfg0.win 3).blk t).view.emb (ix2 p q) = ix2 (gRow t p) q := by
  obtain ⟨-, -, -, -, -, -, e6, e7⟩ := idx_facts t
  funext d; apply Fin.ext
  match d with
  | ⟨0, _⟩ => show win0_3.index t (0 : Fin 2) * 20000 + 1 * p.val = t.val * 20000 + p.val; omega
  | ⟨1, _⟩ => show win0_3.index t (1 : Fin 2) * 64 + 1 * q.val = q.val; omega

/-- Row `p` of the input block at point `t` is row `t · 20000 + p` of the array. -/
theorem xb_row (c : Dev nD) (t : Fin cfg0.N) (p : Fin 20000) : Sage.row (xb V c t) p = Sage.row (V c main_arg0) (gRow t p) :=
  funext fun k => congrArg (V c main_arg0) (emb_x t p k)

/-- The weight block is the whole weight array. -/
theorem wb_eq (c : Dev nD) (t : Fin cfg0.N) : wb V c t = V c main_arg2 :=
  funext fun y => by
    obtain ⟨a, k, rfl⟩ : ∃ (a : Fin 64) (k : Fin 128), y = ix2 a k := ⟨y 0, y 1, eq_ix2 y⟩
    exact congrArg (V c main_arg2) (emb_w t a k)

/-- The bias block is the whole one-row bias array. -/
theorem bb_row (c : Dev nD) (t : Fin cfg0.N) : (fun q : Fin 64 => bb V c t (ix2 (0 : Fin 1) q)) = fun q => V c main_v13 (ix2 (0 : Fin 1) q) :=
  funext fun q => congrArg (V c main_v13) (emb_b t 0 q)

/-- What the region's output array is to hold: the affine layer of the arrays the region finds. -/
abbrev out (c : Dev nD) : S100000x64.Idx → EReal :=
  Sage.affineLayer (V c main_arg0) (V c main_arg2) (fun q => V c main_v13 (ix2 (0 : Fin 1) q))

/-- WHAT POINT `t` WRITES BACK is block `t` of that layer. -/
theorem flushed_eq (c : Dev nD) (t : Fin cfg0.N) :
    (dat0 V c).flushed 3 t = ((cfg0.win 3).blk t).view.read (Elt Ideal) (out V c) := by
  show (cfg0.win 3).cut (grid0.coords t) ((dat0 V c).after 3 t) = _
  rw [after0_3]
  unfold out0_3
  rw [View.canon_unit_zero hz]
  simp only [View.ld_unit_zero (S := S20000x128) hz, View.ld_unit_zero (S := S64x128) hz, View.ld_unit_zero (S := S1x64) hz]
  funext y
  obtain ⟨p, q, rfl⟩ : ∃ (p : Fin 20000) (q : Fin 64), y = ix2 p q := ⟨y 0, y 1, eq_ix2 y⟩
  show k0_pay1 (F := Ideal) (xb V c t) (wb V c t) (bb V c t) (ix2 p q) = out V c (((cfg0.win 3).blk t).view.emb (ix2 p q))
  rw [emb_o t p q]
  refine (pay_apply (xb V c t) (wb V c t) (bb V c t) p q).trans ?_
  show Sage.affineRow (Sage.row (xb V c t) p) (wb V c t) (fun q => bb V c t (ix2 (0 : Fin 1) q)) q
    = Sage.affineRow (Sage.row (V c main_arg0) (gRow t p)) (V c main_arg2) (fun q => V c main_v13 (ix2 (0 : Fin 1) q)) q
  rw [xb_row V c t p, wb_eq V c t, bb_row V c t]

/-- An index of the array is in point `t`'s block iff each coordinate is in the block's range on its axis. -/
theorem mem_blk (t : Fin cfg0.N) (i : S100000x64.Idx) :
    i ∈ ((cfg0.win 3).blk t).view.set ↔ ∀ a : Fin 2, win0_3.index t a * S20000x64.size a ≤ (i a).val ∧ (i a).val < win0_3.index t a * S20000x64.size a + S20000x64.size a := by
  show i ∈ ((View.whole main_v14).slice (win0_3.rect t)).set ↔ _
  rw [View.set_slice_whole, Rect.mem_set_unit]
  exact Iff.rfl

/-- Every block of rows is some point's. -/
theorem idx_onto : ∀ q0 : Fin 5, ∃ t : Fin cfg0.N, win0_3.index t = ![q0.val, 0] :=
  (by decide +kernel : ∀ q0 : Fin 5, ∃ t : Fin grid0.N, win0_3.index t = ![q0.val, 0])

/-- The five blocks cover the array: row `r` lies in block `r / 20000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 20000, by omega⟩
  have q0 : win0_3.index t (0 : Fin 2) = (i 0).val / 20000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 20000 ≤ (i 0).val ∧ (i 0).val < win0_3.index t (0 : Fin 2) * 20000 + 20000; omega
  | ⟨1, _⟩ => show win0_3.index t (1 : Fin 2) * 64 ≤ (i 1).val ∧ (i 1).val < win0_3.index t (1 : Fin 2) * 64 + 64; omega

/-- THE ARRAY the first region leaves: the affine layer of the arrays it finds. -/
theorem arr (c : Dev nD) : (dat0 V c).arrAt 3 cfg0.N = out V c :=
  (dat0 V c).arrAt_eq_of_cover 3 (out V c) (fun t _ => flushed_eq V c t) cover

end Cert.KernelIdeal.Layer0

end
-- ==== Proof.Layer1.lean ====
/-
  A middle layer of the network, as the tiled program computes it: the aggregated neighbour features and the nodes' own
  features, each times its transposed weight matrix, plus the bias, then `max · 0`; one block of 20000 rows per grid point.

  At point `t` the body sees rows `t · 20000 … t · 20000 + 19999` of the two row-indexed arrays, both weight matrices and
  the one-row bias whole, and stores one 20000 × 64 block whose entry `(p, q)` is the activated combination of row `p` of
  the two input blocks — entry `(t · 20000 + p, q)` of the activated layer of the whole arrays. The five blocks tile the
  100000 rows, so the array the region leaves IS that layer of the arrays it found.
-/
import proofs.«150510_j50757923504416_1_alg».proof.Proof.Gen.KernelIdeal.Frame
import proofs.«150510_j50757923504416_1_alg».proof.Proof.Rows
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offset, as a function. -/
theorem hz : (![0, 0] : Fin 2 → Nat) = fun _ => 0 := funext fun a => by fin_cases a <;> rfl

/-- The block index maps, decided over the five points: the two row-indexed inputs and the output move down one block
    of rows per point; the weights and the bias stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block `t` is row `t · 20000 + p` of the array. -/
def gRow (t : Fin cfg1.N) (p : Fin 20000) : Fin 100000 :=
  ⟨t.val * 20000 + p.val, by have := t.isLt; have hN : cfg1.N = 5 := N_1; have := p.isLt; omega⟩

/-- Entry `(p, k)` of the aggregate's block at point `t` sits at `(t · 20000 + p, k)` of its array. -/
theorem emb_a (t : Fin cfg1.N) (p : Fin 20000) (k : Fin 64) :
    ((cfg1.win 0).blk t).view.emb (ix2 p k) = ix2 (gRow t p) k := by
  obtain ⟨e0, e1, -⟩ := idx_facts t
  funext d; apply Fin.ext
  match d with
  | ⟨0, _⟩ => show win1_0.index t (0 : Fin 2) * 20000 + 1 * p.val = t.val * 20000 + p.val; omega
  | ⟨1, _⟩ => show win1_0.index t (1 : Fin 2) * 64 + 1 * k.val = k.val; omega

/-- The same for the own-features block. -/
theorem emb_s (t : Fin cfg1.N) (p : Fin 20000) (k : Fin 64) :
    ((cfg1.win 1).blk t).view.emb (ix2 p k) = ix2 (gRow t p) k := by
  obtain ⟨-, -, e0, e1, -⟩ := idx_facts t
  funext d; apply Fin.ext
  match d with
  | ⟨0, _⟩ => show win1_1.index t (0 : Fin 2) * 20000 + 1 * p.val = t.val * 20000 + p.val; omega
  | ⟨1, _⟩ => show win1_1.index t (1 : Fin 2) * 64 + 1 * k.val = k.val; omega

/-- The left weight block is the array itself: entry `(a, k)` sits at `(a, k)`. -/
theorem emb_wl (t : Fin cfg1.N) (a : Fin 64) (k : Fin 64) :
    ((cfg1.win 2).blk t).view.emb (ix2 a k) = ix2 a k := by
  obtain ⟨-, -, -, -, e0, e1, -⟩ := idx_facts t
  funext d; apply Fin.ext
  match d with
  | ⟨0, _⟩ => show win1_2.index t (0 : Fin 2) * 64 + 1 * a.val = a.val; omega
  | ⟨1, _⟩ => show win1_2.index t (1 : Fin 2) * 64 + 1 * k.val = k.val; omega

/-- The bias block is the one-row array itself. -/
theorem emb_b (t : Fin cfg1.N) (u : Fin 1) (q : Fin 64) :
    ((cfg1.win 3).blk t).view.emb (ix2 u q) = ix2 u q := by
  obtain ⟨-, -, -, -, -, -, e0, e1, -⟩ := idx_facts t
  funext d; apply Fin.ext
  match d with
  | ⟨0, _⟩ => show win1_3.index t (0 : Fin 2) * 1 + 1 * u.val = u.val; omega
  | ⟨1, _⟩ => show win1_3.index t (1 : Fin 2) * 64 + 1 * q.val = q.val; omega

/-- The right weight block is the array itself. -/
theorem emb_wr (t : Fin cfg1.N) (a : Fin 64) (k : Fin 64) :
    ((cfg1.win 4).blk t).view.emb (ix2 a k) = ix2 a k := by
  obtain ⟨-, -, -, -, -, -, -, -, e0, e1, -⟩ := idx_facts t
  funext d; apply Fin.ext
  match d with
  | ⟨0, _⟩ => show win1_4.index t (0 : Fin 2) * 64 + 1 * a.val = a.val; omega
  | ⟨1, _⟩ => show win1_4.index t (1 : Fin 2) * 64 + 1 * k.val = k.val; omega

/-- Entry `(p, q)` of the output block at point `t` sits at `(t · 20000 + p, q)` of the output array. -/
theorem emb_o (t : Fin cfg1.N) (p : Fin 20000) (q : Fin 64) :
    ((cfg1.win 5).blk t).view.emb (ix2 p q) = ix2 (gRow t p) q := by
  obtain ⟨-, -, -, -, -, -, -, -, -, -, e0, e1⟩ := idx_facts t
  funext d; apply Fin.ext
  match d with
  | ⟨0, _⟩ => show win1_5.index t (0 : Fin 2) * 20000 + 1 * p.val = t.val * 20000 + p.val; omega
  | ⟨1, _⟩ => show win1_5.index t (1 : Fin 2) * 64 + 1 * q.val = q.val; omega

/-- The entries of the body's stored value: the activated combination of row `p` of its two row-indexed blocks. -/
theorem pay_apply (a s : Vec Ideal S20000x64 .f32) (wl wr : Vec Ideal S64x64 .f32) (b : Vec Ideal S1x64 .f32) (p : Fin 20000) (q : Fin 64) :
    k1_pay1 (F := Ideal) a s wl wr b (ix2 p q)
      = max (Sage.combineRow (Sage.row a p) (Sage.row s p) wl (fun q => b (ix2 (0 : Fin 1) q)) wr q) (Ideal.ofBits .f32 0x00000000#32) := by
  unfold k1_pay1
  exact congrArg (max · (Ideal.ofBits .f32 0x00000000#32))
    (Sage.tiledCombine_apply dot_S20000x64_S64x64_S20000x64_1_0_0_1_n_n rfl rfl rfl rfl rfl rfl a s wl wr b _ _ _ _ _ p q)

/-- The input blocks at point `t`, at their literal types. -/
abbrev ab (c : Dev nD) (t : Fin cfg1.N) : Vec Ideal S20000x64 .f32 := iblk1 V c 0 t
abbrev sb (c : Dev nD) (t : Fin cfg1.N) : Vec Ideal S20000x64 .f32 := iblk1 V c 1 t
abbrev wlb (c : Dev nD) (t : Fin cfg1.N) : Vec Ideal S64x64 .f32 := iblk1 V c 2 t
abbrev bb (c : Dev nD) (t : Fin cfg1.N) : Vec Ideal S1x64 .f32 := iblk1 V c 3 t
abbrev wrb (c : Dev nD) (t : Fin cfg1.N) : Vec Ideal S64x64 .f32 := iblk1 V c 4 t

/-- Row `p` of each row-indexed input block at point `t` is row `t · 20000 + p` of its array. -/
theorem ab_row (c : Dev nD) (t : Fin cfg1.N) (p : Fin 20000) : Sage.row (ab V c t) p = Sage.row (V c main_v26) (gRow t p) :=
  funext fun k => congrArg (V c main_v26) (emb_a t p k)
theorem sb_row (c : Dev nD) (t : Fin cfg1.N) (p : Fin 20000) : Sage.row (sb V c t) p = Sage.row (V c main_v14) (gRow t p) :=
  funext fun k => congrArg (V c main_v14) (emb_s t p k)

/-- The weight blocks are the whole weight arrays, the bias block the whole one-row bias array. -/
theorem wlb_eq (c : Dev nD) (t : Fin cfg1.N) : wlb V c t = V c main_arg4 :=
  funext fun y => by
    obtain ⟨a, k, rfl⟩ : ∃ (a : Fin 64) (k : Fin 64), y = ix2 a k := ⟨y 0, y 1, eq_ix2 y⟩
    exact congrArg (V c main_arg4) (emb_wl t a k)
theorem wrb_eq (c : Dev nD) (t : Fin cfg1.N) : wrb V c t = V c main_arg6 :=
  funext fun y => by
    obtain ⟨a, k, rfl⟩ : ∃ (a : Fin 64) (k : Fin 64), y = ix2 a k := ⟨y 0, y 1, eq_ix2 y⟩
    exact congrArg (V c main_arg6) (emb_wr t a k)
theorem bb_row (c : Dev nD) (t : Fin cfg1.N) : (fun q : Fin 64 => bb V c t (ix2 (0 : Fin 1) q)) = fun q => V c main_v27 (ix2 (0 : Fin 1) q) :=
  funext fun q => congrArg (V c main_v27) (emb_b t 0 q)

/-- What the region's output array is to hold: the activated layer of the arrays the region finds. -/
abbrev out (c : Dev nD) : S100000x64.Idx → EReal :=
  Sage.activatedLayer (V c main_v26) (V c main_v14) (V c main_arg4) (fun q => V c main_v27 (ix2 (0 : Fin 1) q)) (V c main_arg6)
    (Ideal.ofBits .f32 0x00000000#32)

/-- WHAT POINT `t` WRITES BACK is block `t` of that layer. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S20000x64) hz, View.ld_unit_zero (S := S64x64) hz, View.ld_unit_zero (S := S1x64) hz]
  funext y
  obtain ⟨p, q, rfl⟩ : ∃ (p : Fin 20000) (q : Fin 64), y = ix2 p q := ⟨y 0, y 1, eq_ix2 y⟩
  show k1_pay1 (F := Ideal) (ab V c t) (sb V c t) (wlb V c t) (wrb V c t) (bb V c t) (ix2 p q) = out V c (((cfg1.win 5).blk t).view.emb (ix2 p q))
  rw [emb_o t p q]
  refine (pay_apply (ab V c t) (sb V c t) (wlb V c t) (wrb V c t) (bb V c t) p q).trans ?_
  show max (Sage.combineRow (Sage.row (ab V c t) p) (Sage.row (sb V c t) p) (wlb V c t) (fun q => bb V c t (ix2 (0 : Fin 1) q)) (wrb V c t) q) _
    = max (Sage.combineRow (Sage.row (V c main_v26) (gRow t p)) (Sage.row (V c main_v14) (gRow t p)) (V c main_arg4)
        (fun q => V c main_v27 (ix2 (0 : Fin 1) q)) (V c main_arg6) q) _
  rw [ab_row V c t p, sb_row V c t p, wlb_eq V c t, wrb_eq V c t, bb_row V c t]

/-- An index of the array is in point `t`'s block iff each coordinate is in the block's range on its axis. -/
theorem mem_blk (t : Fin cfg1.N) (i : S100000x64.Idx) :
    i ∈ ((cfg1.win 5).blk t).view.set ↔ ∀ a : Fin 2, win1_5.index t a * S20000x64.size a ≤ (i a).val ∧ (i a).val < win1_5.index t a * S20000x64.size a + S20000x64.size a := by
  show i ∈ ((View.whole main_v28).slice (win1_5.rect t)).set ↔ _
  rw [View.set_slice_whole, Rect.mem_set_unit]
  exact Iff.rfl

/-- Every block of rows is some point's. -/
theorem idx_onto : ∀ q0 : Fin 5, ∃ t : Fin cfg1.N, win1_5.index t = ![q0.val, 0] :=
  (by decide +kernel : ∀ q0 : Fin 5, ∃ t : Fin grid1.N, win1_5.index t = ![q0.val, 0])

/-- The five blocks cover the array: row `r` lies in block `r / 20000`. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 20000, by omega⟩
  have q0 : win1_5.index t (0 : Fin 2) = (i 0).val / 20000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 20000 ≤ (i 0).val ∧ (i 0).val < win1_5.index t (0 : Fin 2) * 20000 + 20000; omega
  | ⟨1, _⟩ => show win1_5.index t (1 : Fin 2) * 64 ≤ (i 1).val ∧ (i 1).val < win1_5.index t (1 : Fin 2) * 64 + 64; omega

/-- THE ARRAY the region leaves: the activated layer of the arrays it finds. -/
theorem arr (c : Dev nD) : (dat1 V c).arrAt 5 cfg1.N = out V c :=
  (dat1 V c).arrAt_eq_of_cover 5 (out V c) (fun t _ => flushed_eq V c t) cover

end Cert.KernelIdeal.Layer1

end
-- ==== Proof.Layer2.lean ====
/-
  A middle layer of the network, as the tiled program computes it: the aggregated neighbour features and the nodes' own
  features, each times its transposed weight matrix, plus the bias, then `max · 0`; one block of 20000 rows per grid point.

  At point `t` the body sees rows `t · 20000 … t · 20000 + 19999` of the two row-indexed arrays, both weight matrices and
  the one-row bias whole, and stores one 20000 × 64 block whose entry `(p, q)` is the activated combination of row `p` of
  the two input blocks — entry `(t · 20000 + p, q)` of the activated layer of the whole arrays. The five blocks tile the
  100000 rows, so the array the region leaves IS that layer of the arrays it found.
-/
import proofs.«150510_j50757923504416_1_alg».proof.Proof.Gen.KernelIdeal.Frame
import proofs.«150510_j50757923504416_1_alg».proof.Proof.Rows
import Idealize.ShloMosaic.Lib.Pipeline.Value

set_option maxRecDepth 16384

noncomputable section

namespace Cert.KernelIdeal.Layer2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offset, as a function. -/
theorem hz : (![0, 0] : Fin 2 → Nat) = fun _ => 0 := funext fun a => by fin_cases a <;> rfl

/-- The block index maps, decided over the five points: the two row-indexed inputs and the output move down one block
    of rows per point; the weights and the bias stay at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of block `t` is row `t · 20000 + p` of the array. -/
def gRow (t : Fin cfg2.N) (p : Fin 20000) : Fin 100000 :=
  ⟨t.val * 20000 + p.val, by have := t.isLt; have hN : cfg2.N = 5 := N_2; have := p.isLt; omega⟩

/-- Entry `(p, k)` of the aggregate's block at point `t` sits at `(t · 20000 + p, k)` of its array. -/
theorem emb_a (t : Fin cfg2.N) (p : Fin 20000) (k : Fin 64) :
    ((cfg2.win 0).blk t).view.emb (ix2 p k) = ix2 (gRow t p) k := by
  obtain ⟨e0, e1, -⟩ := idx_facts t
  funext d; apply Fin.ext
  match d with
  | ⟨0, _⟩ => show win2_0.index t (0 : Fin 2) * 20000 + 1 * p.val = t.val * 20000 + p.val; omega
  | ⟨1, _⟩ => show win2_0.index t (1 : Fin 2) * 64 + 1 * k.val = k.val; omega

/-- The same for the own-features block. -/
theorem emb_s (t : Fin cfg2.N) (p : Fin 20000) (k : Fin 64) :
    ((cfg2.win 1).blk t).view.emb (ix2 p k) = ix2 (gRow t p) k := by
  obtain ⟨-, -, e0, e1, -⟩ := idx_facts t
  funext d; apply Fin.ext
  match d with
  | ⟨0, _⟩ => show win2_1.index t (0 : Fin 2) * 20000 + 1 * p.val = t.val * 20000 + p.val; omega
  | ⟨1, _⟩ => show win2_1.index t (1 : Fin 2) * 64 + 1 * k.val = k.val; omega

/-- The left weight block is the array itself: entry `(a, k)` sits at `(a, k)`. -/
theorem emb_wl (t : Fin cfg2.N) (a : Fin 64) (k : Fin 64) :
    ((cfg2.win 2).blk t).view.emb (ix2 a k) = ix2 a k := by
  obtain ⟨-, -, -, -, e0, e1, -⟩ := idx_facts t
  funext d; apply Fin.ext
  match d with
  | ⟨0, _⟩ => show win2_2.index t (0 : Fin 2) * 64 + 1 * a.val = a.val; omega
  | ⟨1, _⟩ => show win2_2.index t (1 : Fin 2) * 64 + 1 * k.val = k.val; omega

/-- The bias block is the one-row array itself. -/
theorem emb_b (t : Fin cfg2.N) (u : Fin 1) (q : Fin 64) :
    ((cfg2.win 3).blk t).view.emb (ix2 u q) = ix2 u q := by
  obtain ⟨-, -, -, -, -, -, e0, e1, -⟩ := idx_facts t
  funext d; apply Fin.ext
  match d with
  | ⟨0, _⟩ => show win2_3.index t (0 : Fin 2) * 1 + 1 * u.val = u.val; omega
  | ⟨1, _⟩ => show win2_3.index t (1 : Fin 2) * 64 + 1 * q.val = q.val; omega

/-- The right weight block is the array itself. -/
theorem emb_wr (t : Fin cfg2.N) (a : Fin 64) (k : Fin 64) :
    ((cfg2.win 4).blk t).view.emb (ix2 a k) = ix2 a k := by
  obtain ⟨-, -, -, -, -, -, -, -, e0, e1, -⟩ := idx_facts t
  funext d; apply Fin.ext
  match d with
  | ⟨0, _⟩ => show win2_4.index t (0 : Fin 2) * 64 + 1 * a.val = a.val; omega
  | ⟨1, _⟩ => show win2_4.index t (1 : Fin 2) * 64 + 1 * k.val = k.val; omega

/-- Entry `(p, q)` of the output block at point `t` sits at `(t · 20000 + p, q)` of the output array. -/
theorem emb_o (t : Fin cfg2.N) (p : Fin 20000) (q : Fin 64) :
    ((cfg2.win 5).blk t).view.emb (ix2 p q) = ix2 (gRow t p) q := by
  obtain ⟨-, -, -, -, -, -, -, -, -, -, e0, e1⟩ := idx_facts t
  funext d; apply Fin.ext
  match d with
  | ⟨0, _⟩ => show win2_5.index t (0 : Fin 2) * 20000 + 1 * p.val = t.val * 20000 + p.val; omega
  | ⟨1, _⟩ => show win2_5.index t (1 : Fin 2) * 64 + 1 * q.val = q.val; omega

/-- The entries of the body's stored value: the activated combination of row `p` of its two row-indexed blocks. -/
theorem pay_apply (a s : Vec Ideal S20000x64 .f32) (wl wr : Vec Ideal S64x64 .f32) (b : Vec Ideal S1x64 .f32) (p : Fin 20000) (q : Fin 64) :
    k2_pay1 (F := Ideal) a s wl wr b (ix2 p q)
      = max (Sage.combineRow (Sage.row a p) (Sage.row s p) wl (fun q => b (ix2 (0 : Fin 1) q)) wr q) (Ideal.ofBits .f32 0x00000000#32) := by
  unfold k2_pay1
  exact congrArg (max · (Ideal.ofBits .f32 0x00000000#32))
    (Sage.tiledCombine_apply dot_S20000x64_S64x64_S20000x64_1_0_0_1_n_n rfl rfl rfl rfl rfl rfl a s wl wr b _ _ _ _ _ p q)

/-- The input blocks at point `t`, at their literal types. -/
abbrev ab (c : Dev nD) (t : Fin cfg2.N) : Vec Ideal S20000x64 .f32 := iblk2 V c 0 t
abbrev sb (c : Dev nD) (t : Fin cfg2.N) : Vec Ideal S20000x64 .f32 := iblk2 V c 1 t
abbrev wlb (c : Dev nD) (t : Fin cfg2.N) : Vec Ideal S64x64 .f32 := iblk2 V c 2 t
abbrev bb (c : Dev nD) (t : Fin cfg2.N) : Vec Ideal S1x64 .f32 := iblk2 V c 3 t
abbrev wrb (c : Dev nD) (t : Fin cfg2.N) : Vec Ideal S64x64 .f32 := iblk2 V c 4 t

/-- Row `p` of each row-indexed input block at point `t` is row `t · 20000 + p` of its array. -/
theorem ab_row (c : Dev nD) (t : Fin cfg2.N) (p : Fin 20000) : Sage.row (ab V c t) p = Sage.row (V c main_v40) (gRow t p) :=
  funext fun k => congrArg (V c main_v40) (emb_a t p k)
theorem sb_row (c : Dev nD) (t : Fin cfg2.N) (p : Fin 20000) : Sage.row (sb V c t) p = Sage.row (V c main_v28) (gRow t p) :=
  funext fun k => congrArg (V c main_v28) (emb_s t p k)

/-- The weight blocks are the whole weight arrays, the bias block the whole one-row bias array. -/
theorem wlb_eq (c : Dev nD) (t : Fin cfg2.N) : wlb V c t = V c main_arg7 :=
  funext fun y => by
    obtain ⟨a, k, rfl⟩ : ∃ (a : Fin 64) (k : Fin 64), y = ix2 a k := ⟨y 0, y 1, eq_ix2 y⟩
    exact congrArg (V c main_arg7) (emb_wl t a k)
theorem wrb_eq (c : Dev nD) (t : Fin cfg2.N) : wrb V c t = V c main_arg9 :=
  funext fun y => by
    obtain ⟨a, k, rfl⟩ : ∃ (a : Fin 64) (k : Fin 64), y = ix2 a k := ⟨y 0, y 1, eq_ix2 y⟩
    exact congrArg (V c main_arg9) (emb_wr t a k)
theorem bb_row (c : Dev nD) (t : Fin cfg2.N) : (fun q : Fin 64 => bb V c t (ix2 (0 : Fin 1) q)) = fun q => V c main_v41 (ix2 (0 : Fin 1) q) :=
  funext fun q => congrArg (V c main_v41) (emb_b t 0 q)

/-- What the region's output array is to hold: the activated layer of the arrays the region finds. -/
abbrev out (c : Dev nD) : S100000x64.Idx → EReal :=
  Sage.activatedLayer (V c main_v40) (V c main_v28) (V c main_arg7) (fun q => V c main_v41 (ix2 (0 : Fin 1) q)) (V c main_arg9)
    (Ideal.ofBits .f32 0x00000000#32)

/-- WHAT POINT `t` WRITES BACK is block `t` of that layer. -/
theorem flushed_eq (c : Dev nD) (t : Fin cfg2.N) :
    (dat2 V c).flushed 5 t = ((cfg2.win 5).blk t).view.read (Elt Ideal) (out V c) := by
  show (cfg2.win 5).cut (grid2.coords t) ((dat2 V c).after 5 t) = _
  rw [after2_5]
  unfold out2_5
  rw [View.canon_unit_zero hz]
  simp only [View.ld_unit_zero (S := S20000x64) hz, View.ld_unit_zero (S := S64x64) hz, View.ld_unit_zero (S := S1x64) hz]
  funext y
  obtain ⟨p, q, rfl⟩ : ∃ (p : Fin 20000) (q : Fin 64), y = ix2 p q := ⟨y 0, y 1, eq_ix2 y⟩
  show k2_pay1 (F := Ideal) (ab V c t) (sb V c t) (wlb V c t) (wrb V c t) (bb V c t) (ix2 p q) = out V c (((cfg2.win 5).blk t).view.emb (ix2 p q))
  rw [emb_o t p q]
  refine (pay_apply (ab V c t) (sb V c t) (wlb V c t) (wrb V c t) (bb V c t) p q).trans ?_
  show max (Sage.combineRow (Sage.row (ab V c t) p) (Sage.row (sb V c t) p) (wlb V c t) (fun q => bb V c t (ix2 (0 : Fin 1) q)) (wrb V c t) q) _
    = max (Sage.combineRow (Sage.row (V c main_v40) (gRow t p)) (Sage.row (V c main_v28) (gRow t p)) (V c main_arg7)
        (fun q => V c main_v41 (ix2 (0 : Fin 1) q)) (V c main_arg9) q) _
  rw [ab_row V c t p, sb_row V c t p, wlb_eq V c t, wrb_eq V c t, bb_row V c t]

/-- An index of the array is in point `t`'s block iff each coordinate is in the block's range on its axis. -/
theorem mem_blk (t : Fin cfg2.N) (i : S100000x64.Idx) :
    i ∈ ((cfg2.win 5).blk t).view.set ↔ ∀ a : Fin 2, win2_5.index t a * S20000x64.size a ≤ (i a).val ∧ (i a).val < win2_5.index t a * S20000x64.size a + S20000x64.size a := by
  show i ∈ ((View.whole main_v42).slice (win2_5.rect t)).set ↔ _
  rw [View.set_slice_whole, Rect.mem_set_unit]
  exact Iff.rfl

/-- Every block of rows is some point's. -/
theorem idx_onto : ∀ q0 : Fin 5, ∃ t : Fin cfg2.N, win2_5.index t = ![q0.val, 0] :=
  (by decide +kernel : ∀ q0 : Fin 5, ∃ t : Fin grid2.N, win2_5.index t = ![q0.val, 0])

/-- The five blocks cover the array: row `r` lies in block `r / 20000`. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := idx_onto ⟨(i 0).val / 20000, by omega⟩
  have q0 : win2_5.index t (0 : Fin 2) = (i 0).val / 20000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 20000 ≤ (i 0).val ∧ (i 0).val < win2_5.index t (0 : Fin 2) * 20000 + 20000; omega
  | ⟨1, _⟩ => show win2_5.index t (1 : Fin 2) * 64 ≤ (i 1).val ∧ (i 1).val < win2_5.index t (1 : Fin 2) * 64 + 64; omega

/-- THE ARRAY the region leaves: the activated layer of the arrays it finds. -/
theorem arr (c : Dev nD) : (dat2 V c).arrAt 5 cfg2.N = out V c :=
  (dat2 V c).arrAt_eq_of_cover 5 (out V c) (fun t _ => flushed_eq V c t) cover

end Cert.KernelIdeal.Layer2

end
-- ==== Proof.Layer3.lean ====
/-
  The last layer of the network, as the tiled program computes it: the aggregated neighbour features and the nodes' own
  features, each times its transposed weight matrix, plus the bias; then every row divided by its Euclidean length, the
  length replaced by a small floor where it is smaller. One block of 20000 rows per grid point.

  The length of a row is taken inside the block: the lane sum of the squares of the row's 32 entries, its square root as a
  column, the floor, the column spread back over the 32 lanes. All of it is local to the row, so entry `(p, q)` of the
  block stored at point `t` is entry `(t · 20000 + p, q)` of the normalized layer of the whole arrays; the five blocks tile
  the 100000 rows, so the array the region leaves IS that layer of the arrays it found.
-/
import proofs.«150510_j50757923504416_1_alg».proof.Proof.Gen.KernelIdeal.Frame
import proofs.«150510_j50757923504416_1_alg».proof.Proof.Rows
import Idealize.ShloMosaic.Lib.Pipeline.Value

set_option maxRecDepth 16384

noncomputable section

namespace Cert.KernelIdeal.Layer3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offset, as a function. -/
theorem hz : (![0, 0] : Fin 2 → Nat) = fun _ => 0 := funext fun a => by fin_cases a <;> rfl

/-- The block index maps, decided over the five points: the two row-indexed inputs and the output move down one block
    of rows per point; the weights and the bias stay at their one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of block `t` is row `t · 20000 + p` of the array. -/
def gRow (t : Fin cfg3.N) (p : Fin 20000) : Fin 100000 :=
  ⟨t.val * 20000 + p.val, by have := t.isLt; have hN : cfg3.N = 5 := N_3; have := p.isLt; omega⟩

/-- Entry `(p, k)` of the aggregate's block at point `t` sits at `(t · 20000 + p, k)` of its array. -/
theorem emb_a (t : Fin cfg3.N) (p : Fin 20000) (k : Fin 64) :
    ((cfg3.win 0).blk t).view.emb (ix2 p k) = ix2 (gRow t p) k := by
  obtain ⟨e0, e1, -⟩ := idx_facts t
  funext d; apply Fin.ext
  match d with
  | ⟨0, _⟩ => show win3_0.index t (0 : Fin 2) * 20000 + 1 * p.val = t.val * 20000 + p.val; omega
  | ⟨1, _⟩ => show win3_0.index t (1 : Fin 2) * 64 + 1 * k.val = k.val; omega

/-- The same for the own-features block. -/
theorem emb_s (t : Fin cfg3.N) (p : Fin 20000) (k : Fin 64) :
    ((cfg3.win 1).blk t).view.emb (ix2 p k) = ix2 (gRow t p) k := by
  obtain ⟨-, -, e0, e1, -⟩ := idx_facts t
  funext d; apply Fin.ext
  match d with
  | ⟨0, _⟩ => show win3_1.index t (0 : Fin 2) * 20000 + 1 * p.val = t.val * 20000 + p.val; omega
  | ⟨1, _⟩ => show win3_1.index t (1 : Fin 2) * 64 + 1 * k.val = k.val; omega

/-- The left weight block is the array itself: entry `(a, k)` sits at `(a, k)`. -/
theorem emb_wl (t : Fin cfg3.N) (a : Fin 32) (k : Fin 64) :
    ((cfg3.win 2).blk t).view.emb (ix2 a k) = ix2 a k := by
  obtain ⟨-, -, -, -, e0, e1, -⟩ := idx_facts t
  funext d; apply Fin.ext
  match d with
  | ⟨0, _⟩ => show win3_2.index t (0 : Fin 2) * 32 + 1 * a.val = a.val; omega
  | ⟨1, _⟩ => show win3_2.index t (1 : Fin 2) * 64 + 1 * k.val = k.val; omega

/-- The bias block is the one-row array itself. -/
theorem emb_b (t : Fin cfg3.N) (u : Fin 1) (q : Fin 32) :
    ((cfg3.win 3).blk t).view.emb (ix2 u q) = ix2 u q := by
  obtain ⟨-, -, -, -, -, -, e0, e1, -⟩ := idx_facts t
  funext d; apply Fin.ext
  match d with
  | ⟨0, _⟩ => show win3_3.index t (0 : Fin 2) * 1 + 1 * u.val = u.val; omega
  | ⟨1, _⟩ => show win3_3.index t (1 : Fin 2) * 32 + 1 * q.val = q.val; omega

/-- The right weight block is the array itself. -/
theorem emb_wr (t : Fin cfg3.N) (a : Fin 32) (k : Fin 64) :
    ((cfg3.win 4).blk t).view.emb (ix2 a k) = ix2 a k := by
  obtain ⟨-, -, -, -, -, -, -, -, e0, e1, -⟩ := idx_facts t
  funext d; apply Fin.ext
  match d with
  | ⟨0, _⟩ => show win3_4.index t (0 : Fin 2) * 32 + 1 * a.val = a.val; omega
  | ⟨1, _⟩ => show win3_4.index t (1 : Fin 2) * 64 + 1 * k.val = k.val; omega

/-- Entry `(p, q)` of the output block at point `t` sits at `(t · 20000 + p, q)` of the output array. -/
theorem emb_o (t : Fin cfg3.N) (p : Fin 20000) (q : Fin 32) :
    ((cfg3.win 5).blk t).view.emb (ix2 p q) = ix2 (gRow t p) q := by
  obtain ⟨-, -, -, -, -, -, -, -, -, -, e0, e1⟩ := idx_facts t
  funext d; apply Fin.ext
  match d with
  | ⟨0, _⟩ => show win3_5.index t (0 : Fin 2) * 20000 + 1 * p.val = t.val * 20000 + p.val; omega
  | ⟨1, _⟩ => show win3_5.index t (1 : Fin 2) * 32 + 1 * q.val = q.val; omega

/-- The entries of the body's stored value: row `p` of the combination of its two row-indexed blocks, normalized. -/
theorem pay_apply (a s : Vec Ideal S20000x64 .f32) (wl wr : Vec Ideal S32x64 .f32) (b : Vec Ideal S1x32 .f32) (p : Fin 20000) (q : Fin 32) :
    k3_pay1 (F := Ideal) a s wl wr b (ix2 p q)
      = Sage.normalizeRow (fun q' => Sage.combineRow (Sage.row a p) (Sage.row s p) wl (fun q => b (ix2 (0 : Fin 1) q)) wr q')
          (Ideal.ofBits .f32 0x2B8CBCCC#32) q := by
  unfold k3_pay1
  refine (Sage.tiledNormalize_apply (R := 20000) (C := 32) _ (Ideal.ofBits .f32 0x2B8CBCCC#32) _ _ _ _ _ p q).trans ?_
  refine congrArg (fun h => Sage.normalizeRow h (Ideal.ofBits .f32 0x2B8CBCCC#32) q) (funext fun q' => ?_)
  exact Sage.tiledCombine_apply dot_S20000x64_S64x32_S20000x32_1_0_0_1_n_n rfl rfl rfl rfl rfl rfl a s wl wr b _ _ _ _ _ p q'

/-- The input blocks at point `t`, at their literal types. -/
abbrev ab (c : Dev nD) (t : Fin cfg3.N) : Vec Ideal S20000x64 .f32 := iblk3 V c 0 t
abbrev sb (c : Dev nD) (t : Fin cfg3.N) : Vec Ideal S20000x64 .f32 := iblk3 V c 1 t
abbrev wlb (c : Dev nD) (t : Fin cfg3.N) : Vec Ideal S32x64 .f32 := iblk3 V c 2 t
abbrev bb (c : Dev nD) (t : Fin cfg3.N) : Vec Ideal S1x32 .f32 := iblk3 V c 3 t
abbrev wrb (c : Dev nD) (t : Fin cfg3.N) : Vec Ideal S32x64 .f32 := iblk3 V c 4 t

/-- Row `p` of each row-indexed input block at point `t` is row `t · 20000 + p` of its array. -/
theorem ab_row (c : Dev nD) (t : Fin cfg3.N) (p : Fin 20000) : Sage.row (ab V c t) p = Sage.row (V c main_v54) (gRow t p) :=
  funext fun k => congrArg (V c main_v54) (emb_a t p k)
theorem sb_row (c : Dev nD) (t : Fin cfg3.N) (p : Fin 20000) : Sage.row (sb V c t) p = Sage.row (V c main_v42) (gRow t p) :=
  funext fun k => congrArg (V c main_v42) (emb_s t p k)

/-- The weight blocks are the whole weight arrays, the bias block the whole one-row bias array. -/
theorem wlb_eq (c : Dev nD) (t : Fin cfg3.N) : wlb V c t = V c main_arg10 :=
  funext fun y => by
    obtain ⟨a, k, rfl⟩ : ∃ (a : Fin 32) (k : Fin 64), y = ix2 a k := ⟨y 0, y 1, eq_ix2 y⟩
    exact congrArg (V c main_arg10) (emb_wl t a k)
theorem wrb_eq (c : Dev nD) (t : Fin cfg3.N) : wrb V c t = V c main_arg12 :=
  funext fun y => by
    obtain ⟨a, k, rfl⟩ : ∃ (a : Fin 32) (k : Fin 64), y = ix2 a k := ⟨y 0, y 1, eq_ix2 y⟩
    exact congrArg (V c main_arg12) (emb_wr t a k)
theorem bb_row (c : Dev nD) (t : Fin cfg3.N) : (fun q : Fin 32 => bb V c t (ix2 (0 : Fin 1) q)) = fun q => V c main_v55 (ix2 (0 : Fin 1) q) :=
  funext fun q => congrArg (V c main_v55) (emb_b t 0 q)

/-- What the region's output array is to hold: the normalized layer of the arrays the region finds. -/
abbrev out (c : Dev nD) : S100000x32.Idx → EReal :=
  Sage.normalizedLayer (V c main_v54) (V c main_v42) (V c main_arg10) (fun q => V c main_v55 (ix2 (0 : Fin 1) q)) (V c main_arg12)
    (Ideal.ofBits .f32 0x2B8CBCCC#32)

/-- WHAT POINT `t` WRITES BACK is block `t` of that layer. -/
theorem flushed_eq (c : Dev nD) (t : Fin cfg3.N) :
    (dat3 V c).flushed 5 t = ((cfg3.win 5).blk t).view.read (Elt Ideal) (out V c) := by
  show (cfg3.win 5).cut (grid3.coords t) ((dat3 V c).after 5 t) = _
  rw [after3_5]
  unfold out3_5
  rw [View.canon_unit_zero hz]
  simp only [View.ld_unit_zero (S := S20000x64) hz, View.ld_unit_zero (S := S32x64) hz, View.ld_unit_zero (S := S1x32) hz]
  funext y
  obtain ⟨p, q, rfl⟩ : ∃ (p : Fin 20000) (q : Fin 32), y = ix2 p q := ⟨y 0, y 1, eq_ix2 y⟩
  show k3_pay1 (F := Ideal) (ab V c t) (sb V c t) (wlb V c t) (wrb V c t) (bb V c t) (ix2 p q) = out V c (((cfg3.win 5).blk t).view.emb (ix2 p q))
  rw [emb_o t p q]
  refine (pay_apply (ab V c t) (sb V c t) (wlb V c t) (wrb V c t) (bb V c t) p q).trans ?_
  show Sage.normalizeRow (fun q' => Sage.combineRow (Sage.row (ab V c t) p) (Sage.row (sb V c t) p) (wlb V c t) (fun q => bb V c t (ix2 (0 : Fin 1) q)) (wrb V c t) q') _ q
    = Sage.normalizeRow (fun q' => Sage.combineRow (Sage.row (V c main_v54) (gRow t p)) (Sage.row (V c main_v42) (gRow t p)) (V c main_arg10)
        (fun q => V c main_v55 (ix2 (0 : Fin 1) q)) (V c main_arg12) q') _ q
  rw [ab_row V c t p, sb_row V c t p, wlb_eq V c t, wrb_eq V c t, bb_row V c t]

/-- An index of the array is in point `t`'s block iff each coordinate is in the block's range on its axis. -/
theorem mem_blk (t : Fin cfg3.N) (i : S100000x32.Idx) :
    i ∈ ((cfg3.win 5).blk t).view.set ↔ ∀ a : Fin 2, win3_5.index t a * S20000x32.size a ≤ (i a).val ∧ (i a).val < win3_5.index t a * S20000x32.size a + S20000x32.size a := by
  show i ∈ ((View.whole main_v56).slice (win3_5.rect t)).set ↔ _
  rw [View.set_slice_whole, Rect.mem_set_unit]
  exact Iff.rfl

/-- Every block of rows is some point's. -/
theorem idx_onto : ∀ q0 : Fin 5, ∃ t : Fin cfg3.N, win3_5.index t = ![q0.val, 0] :=
  (by decide +kernel : ∀ q0 : Fin 5, ∃ t : Fin grid3.N, win3_5.index t = ![q0.val, 0])

/-- The five blocks cover the array: row `r` lies in block `r / 20000`. -/
theorem cover (i : S100000x32.Idx) : ∃ t : Fin cfg3.N, (cfg3.win 5).flush t = true ∧ i ∈ ((cfg3.win 5).blk t).view.set := by
  have hi0 : (i 0).val < 100000 := (i 0).isLt
  have hi1 : (i 1).val < 32 := (i 1).isLt
  obtain ⟨t, ht⟩ := idx_onto ⟨(i 0).val / 20000, by omega⟩
  have q0 : win3_5.index t (0 : Fin 2) = (i 0).val / 20000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 20000 ≤ (i 0).val ∧ (i 0).val < win3_5.index t (0 : Fin 2) * 20000 + 20000; omega
  | ⟨1, _⟩ => show win3_5.index t (1 : Fin 2) * 32 ≤ (i 1).val ∧ (i 1).val < win3_5.index t (1 : Fin 2) * 32 + 32; omega

/-- THE ARRAY the region leaves: the normalized layer of the arrays it finds. -/
theorem arr (c : Dev nD) : (dat3 V c).arrAt 5 cfg3.N = out V c :=
  (dat3 V c).arrAt_eq_of_cover 5 (out V c) (fun t _ => flushed_eq V c t) cover

end Cert.KernelIdeal.Layer3

end
-- ==== Proof.RefLayers.lean ====
/-
  The whole-array program, layer by layer.

  Its stages are the same network: an affine layer of the node features; then three times a mean aggregation over the
  incoming edges (gather the source rows, add them into their destination rows, scale each row by the inverse of the
  destination's in-degree, the degree kept at least one) followed by a combine layer of the aggregate and the layer's own
  input — the first two activated by `max · 0`, the last one normalized row by row. The aggregation is the same stretch of
  operations each time; it is named once, `aggregate`, as a function of the edge array and of the feature array it gathers
  from, and never opened. Each dense stage is read entry by entry and is the corresponding layer function of the stages
  before it.
-/
import proofs.«150510_j50757923504416_1_alg».proof.Proof.Gen.ReferenceIdeal.Read
import proofs.«150510_j50757923504416_1_alg».proof.Proof.Rows

noncomputable section

namespace Cert.ReferenceIdeal.Layers

open Cert.ReferenceIdeal Cert.ReferenceIdeal.Gen Cert.ReferenceIdeal.Read Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S64x128, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal)) (x6 : (⟨S64x64, .f32⟩ : BufTy).Contents (Elt Ideal))
  (x7 : (⟨S64x64, .f32⟩ : BufTy).Contents (Elt Ideal)) (x8 : (⟨S64, .f32⟩ : BufTy).Contents (Elt Ideal)) (x9 : (⟨S64x64, .f32⟩ : BufTy).Contents (Elt Ideal))
  (x10 : (⟨S32x64, .f32⟩ : BufTy).Contents (Elt Ideal)) (x11 : (⟨S32, .f32⟩ : BufTy).Contents (Elt Ideal)) (x12 : (⟨S32x64, .f32⟩ : BufTy).Contents (Elt Ideal))

/-! ## The aggregation -/

/-- The mean over incoming edges of the rows of `h`: the rows at the edges' sources gathered, added into the rows at the
    edges' destinations from zero, each row scaled by the inverse in-degree. A function of the edge array and `h` alone. -/
def aggregate (x1 : (⟨S2x1600000, .i32⟩ : BufTy).Contents (Elt Ideal)) (h : FVec Ideal S100000x64 .f32) : FVec Ideal S100000x64 .f32 :=
  mulf (F := Ideal) (Host.scatterAdd (F := Ideal) scatter_S100000x64_S1600000x1_S1600000x64_1_0_0_1 (val_main_v25 (F := Ideal)) (val_main_v26 (F := Ideal) x1)
      (Host.gather gather_S100000x64_S1600000x1_S1600000x64_1_0_n_n_0_1_164 h (val_main_v23 (F := Ideal) x1)))
    (val_main_v28 (F := Ideal) x1)

/-- The three aggregations' index, zero and scale operands are the same arrays each time. -/
theorem idx2_eq : val_main_v44 (F := Ideal) x1 = val_main_v23 (F := Ideal) x1 := by
  unfold val_main_v44 val_main_v43 val_main_v40 val_main_v42 val_main_v39 val_main_v41 val_main_c_5 val_main_c_6
    val_main_v23 val_main_v22 val_main_v19 val_main_v21 val_main_v18 val_main_v20 val_main_c val_main_c_3
  rfl
theorem idx3_eq : val_main_v65 (F := Ideal) x1 = val_main_v23 (F := Ideal) x1 := by
  unfold val_main_v65 val_main_v64 val_main_v61 val_main_v63 val_main_v60 val_main_v62 val_main_c_8 val_main_c_9
    val_main_v23 val_main_v22 val_main_v19 val_main_v21 val_main_v18 val_main_v20 val_main_c val_main_c_3
  rfl
theorem zero2_eq : val_main_v46 (F := Ideal) = val_main_v25 (F := Ideal) := by
  unfold val_main_v46 val_main_cst_7 val_main_v25 val_main_cst_4; rfl
theorem zero3_eq : val_main_v67 (F := Ideal) = val_main_v25 (F := Ideal) := by
  unfold val_main_v67 val_main_cst_10 val_main_v25 val_main_cst_4; rfl
theorem dst2_eq : val_main_v47 (F := Ideal) x1 = val_main_v26 (F := Ideal) x1 := by
  unfold val_main_v47 val_main_v26; rfl
theorem dst3_eq : val_main_v68 (F := Ideal) x1 = val_main_v26 (F := Ideal) x1 := by
  unfold val_main_v68 val_main_v26; rfl
theorem scale2_eq : val_main_v49 (F := Ideal) x1 = val_main_v28 (F := Ideal) x1 := by
  unfold val_main_v49 val_main_v28; rfl
theorem scale3_eq : val_main_v70 (F := Ideal) x1 = val_main_v28 (F := Ideal) x1 := by
  unfold val_main_v70 val_main_v28; rfl

theorem agg1_eq : val_main_v29 (F := Ideal) x0 x1 x2 x3 = aggregate x1 (val_main_v17 (F := Ideal) x0 x2 x3) := by
  unfold val_main_v29 val_main_v27 val_main_v24 aggregate; rfl

theorem agg2_eq : val_main_v50 (F := Ideal) x0 x1 x2 x3 x4 x5 x6 = aggregate x1 (val_main_v38 (F := Ideal) x0 x1 x2 x3 x4 x5 x6) := by
  unfold val_main_v50 val_main_v48 val_main_v45 aggregate
  rw [idx2_eq, zero2_eq, dst2_eq, scale2_eq]

theorem agg3_eq : val_main_v71 (F := Ideal) x0 x1 x2 x3 x4 x5 x6 x7 x8 x9 = aggregate x1 (val_main_v59 (F := Ideal) x0 x1 x2 x3 x4 x5 x6 x7 x8 x9) := by
  unfold val_main_v71 val_main_v69 val_main_v66 aggregate
  rw [idx3_eq, zero3_eq, dst3_eq, scale3_eq]

/-! ## The dense stages -/

/-- The first stage that ends a layer: the affine layer of the node features. -/
theorem lin_eq : val_main_v17 (F := Ideal) x0 x2 x3 = Sage.affineLayer x0 x2 (fun q => x3 (ix1 q)) := by
  funext i
  obtain ⟨p, q, rfl⟩ : ∃ (p : Fin 100000) (q : Fin 64), i = ix2 p q := ⟨i 0, i 1, eq_ix2 i⟩
  unfold val_main_v17 val_main_v14 val_main_v16 val_main_v15 val_main_v13
  exact Sage.hostAffine_apply dot_S100000x128_S128x64_S100000x64_1_0_0_1_n_n rfl rfl rfl rfl rfl rfl x0 x2 x3 _ _ _ p q

/-- The activation in the whole-array spelling, at an entry: `max` against a zero spread over the array. -/
theorem relu_apply (X : (⟨S100000x64, .f32⟩ : BufTy).Contents (Elt Ideal)) (p : Fin 100000) (q : Fin 64) :
    maximumf X (broadcastInDim S100000x64 ![] bcast_S_S100000x64 (constant (F := Ideal) S_ .f32 0x00000000#32)) (ix2 p q)
      = max (X (ix2 p q)) (Ideal.ofBits .f32 0x00000000#32) :=
  congrArg (max (X (ix2 p q))) (Sage.bcastScalar_apply (constant (F := Ideal) S_ .f32 0x00000000#32) bcast_S_S100000x64 (ix2 p q))

/-- The first activated layer, of the first aggregate and the first layer's output. -/
theorem act1_eq : val_main_v38 (F := Ideal) x0 x1 x2 x3 x4 x5 x6
    = Sage.activatedLayer (val_main_v29 (F := Ideal) x0 x1 x2 x3) (val_main_v17 (F := Ideal) x0 x2 x3) x4 (fun q => x5 (ix1 q)) x6
        (Ideal.ofBits .f32 0x00000000#32) := by
  funext i
  obtain ⟨p, q, rfl⟩ : ∃ (p : Fin 100000) (q : Fin 64), i = ix2 p q := ⟨i 0, i 1, eq_ix2 i⟩
  unfold val_main_v38 val_main_v37 val_main_v34 val_main_v31 val_main_v33 val_main_v32 val_main_v36 val_main_v30 val_main_v35
    val_main_call0_v0 val_main_call0_cst
  refine (relu_apply _ p q).trans ?_
  exact congrArg (max · (Ideal.ofBits .f32 0x00000000#32))
    (Sage.hostCombine_apply dot_S100000x64_S64x64_S100000x64_1_0_0_1_n_n rfl rfl rfl rfl rfl rfl
      (val_main_v29 (F := Ideal) x0 x1 x2 x3) (val_main_v17 (F := Ideal) x0 x2 x3) x4 x6 x5 _ _ _ p q)

/-- The second activated layer, of the second aggregate and the first activated layer's output. -/
theorem act2_eq : val_main_v59 (F := Ideal) x0 x1 x2 x3 x4 x5 x6 x7 x8 x9
    = Sage.activatedLayer (val_main_v50 (F := Ideal) x0 x1 x2 x3 x4 x5 x6) (val_main_v38 (F := Ideal) x0 x1 x2 x3 x4 x5 x6) x7 (fun q => x8 (ix1 q)) x9
        (Ideal.ofBits .f32 0x00000000#32) := by
  funext i
  obtain ⟨p, q, rfl⟩ : ∃ (p : Fin 100000) (q : Fin 64), i = ix2 p q := ⟨i 0, i 1, eq_ix2 i⟩
  unfold val_main_v59 val_main_v58 val_main_v55 val_main_v52 val_main_v54 val_main_v53 val_main_v57 val_main_v51 val_main_v56
    val_main_call1_v0 val_main_call1_cst
  refine (relu_apply _ p q).trans ?_
  exact congrArg (max · (Ideal.ofBits .f32 0x00000000#32))
    (Sage.hostCombine_apply dot_S100000x64_S64x64_S100000x64_1_0_0_1_n_n rfl rfl rfl rfl rfl rfl
      (val_main_v50 (F := Ideal) x0 x1 x2 x3 x4 x5 x6) (val_main_v38 (F := Ideal) x0 x1 x2 x3 x4 x5 x6) x7 x9 x8 _ _ _ p q)

/-- Row `p` of the last combine stage, before the normalization. -/
theorem pre_row (p : Fin 100000) :
    Sage.row (val_main_v79 (F := Ideal) x0 x1 x2 x3 x4 x5 x6 x7 x8 x9 x10 x11 x12) p
      = fun q' => Sage.combineRow (Sage.row (val_main_v71 (F := Ideal) x0 x1 x2 x3 x4 x5 x6 x7 x8 x9) p) (Sage.row (val_main_v59 (F := Ideal) x0 x1 x2 x3 x4 x5 x6 x7 x8 x9) p) x10 (fun q => x11 (ix1 q)) x12 q' := by
  funext q'
  show (val_main_v79 (F := Ideal) x0 x1 x2 x3 x4 x5 x6 x7 x8 x9 x10 x11 x12) (ix2 p q') = _
  unfold val_main_v79 val_main_v76 val_main_v73 val_main_v75 val_main_v74 val_main_v78 val_main_v72 val_main_v77
  exact Sage.hostCombine_apply dot_S100000x64_S64x32_S100000x32_1_0_0_1_n_n rfl rfl rfl rfl rfl rfl
    (val_main_v71 (F := Ideal) x0 x1 x2 x3 x4 x5 x6 x7 x8 x9) (val_main_v59 (F := Ideal) x0 x1 x2 x3 x4 x5 x6 x7 x8 x9) x10 x12 x11 _ _ _ p q'

/-- The last stage: the normalized layer of the third aggregate and the second activated layer's output. -/
theorem norm_eq : val_main_v84 (F := Ideal) x0 x1 x2 x3 x4 x5 x6 x7 x8 x9 x10 x11 x12
    = Sage.normalizedLayer (val_main_v71 (F := Ideal) x0 x1 x2 x3 x4 x5 x6 x7 x8 x9) (val_main_v59 (F := Ideal) x0 x1 x2 x3 x4 x5 x6 x7 x8 x9)
        x10 (fun q => x11 (ix1 q)) x12 (Ideal.ofBits .f32 0x2B8CBCCC#32) := by
  funext i
  obtain ⟨p, q, rfl⟩ : ∃ (p : Fin 100000) (q : Fin 32), i = ix2 p q := ⟨i 0, i 1, eq_ix2 i⟩
  unfold val_main_v84 val_main_v83 val_main_v82 val_main_v81 val_main_v80 val_main_call2_v2 val_main_call2_v1 val_main_call2_v0
    val_main_call2_cst val_main_cst_11
  refine (Sage.hostNormalize_apply (R := 100000) (C := 32) (val_main_v79 (F := Ideal) x0 x1 x2 x3 x4 x5 x6 x7 x8 x9 x10 x11 x12)
    0x2B8CBCCC#32 _ (by decide) _ _ _ _ p q).trans ?_
  rw [pre_row]
  rfl

/-! ## The network -/

/-- The network as one function of its thirteen arguments: the layers over the named aggregation. -/
def net : (⟨S100000x32, .f32⟩ : BufTy).Contents (Elt Ideal) :=
  let h0 := Sage.affineLayer x0 x2 (fun q => x3 (ix1 q))
  let h1 := Sage.activatedLayer (aggregate x1 h0) h0 x4 (fun q => x5 (ix1 q)) x6 (Ideal.ofBits .f32 0x00000000#32)
  let h2 := Sage.activatedLayer (aggregate x1 h1) h1 x7 (fun q => x8 (ix1 q)) x9 (Ideal.ofBits .f32 0x00000000#32)
  Sage.normalizedLayer (aggregate x1 h2) h2 x10 (fun q => x11 (ix1 q)) x12 (Ideal.ofBits .f32 0x2B8CBCCC#32)

/-- The whole-array program's result is the network of its arguments. -/
theorem result_eq : val_main_v84 (F := Ideal) x0 x1 x2 x3 x4 x5 x6 x7 x8 x9 x10 x11 x12 = net x0 x1 x2 x3 x4 x5 x6 x7 x8 x9 x10 x11 x12 := by
  rw [norm_eq, agg3_eq, act2_eq, agg2_eq, act1_eq, agg1_eq, lin_eq]
  rfl

end Cert.ReferenceIdeal.Layers

end
-- ==== Proof.KernelValue.lean ====
/-
  The tiled program's result, followed through its run.

  @main alternates stretches of host operations with four tiled regions. The buffer contents at the eight boundaries are a
  fold from the launch memory: a host stretch rewrites the buffers its operations write and leaves the rest; a region
  rewrites its output array and leaves the rest. Reading the fold back from the result buffer:

    the last region leaves the normalized layer of (the third aggregate, the second activated layer's output);
    the stretch before it computes that aggregate from the second activated layer's output and the edge data;
    the third region leaves the second activated layer of (the second aggregate, the first activated layer's output);
    … and so on down to the first region, which leaves the affine layer of the node features.

  The edge data (source and destination indices, inverse in-degrees) are computed once, by the first stretch, from the edge
  array, and no later operation or region writes them; the weights and biases are arguments nobody writes. So every operand
  a region or a stretch reads is the same function of the thirteen arguments that the whole-array program's stages are, and
  the result is the network of the arguments.
-/
import proofs.«150510_j50757923504416_1_alg».proof.Proof.Gen.KernelIdeal.Frame
import proofs.«150510_j50757923504416_1_alg».proof.Proof.Layer0
import proofs.«150510_j50757923504416_1_alg».proof.Proof.Layer1
import proofs.«150510_j50757923504416_1_alg».proof.Proof.Layer2
import proofs.«150510_j50757923504416_1_alg».proof.Proof.Layer3
import proofs.«150510_j50757923504416_1_alg».proof.Proof.RefLayers
import Idealize.ShloMosaic.Lib.ValueLayout

set_option maxRecDepth 16384

noncomputable section

namespace Cert.KernelIdeal.Net

open Cert.KernelIdeal Cert.KernelIdeal.Gen Idealize.ShloMosaic Idealize.ShloMosaic.TcCoe Idealize.ShloMosaic.ValueIdx Idealize.SL.Sem
open Idealize.ShloMosaic.StableHlo
open Cert.ReferenceIdeal.Layers (aggregate)

variable (m : (ℓ : Loc nD τ sig) → Buf (Elt Ideal) ℓ) (ρ : Dev nD → PrngReg) (c : Dev nD)

/-- A buffer that is none of a region's arrays is, at the region's exit, what it was at its entry. -/
theorem W2_keep (b : Ref sig .tc) (hb : ∀ w, Pipeline.arrRef spec0 w ≠ b) :
    W2 m ρ c (no_index (Proc.devRef .tc b)) = W1 m ρ c (Proc.devRef .tc b) := W2_of_ne m ρ c b hb
theorem W4_keep (b : Ref sig .tc) (hb : ∀ w, Pipeline.arrRef spec1 w ≠ b) :
    W4 m ρ c (no_index (Proc.devRef .tc b)) = W3 m ρ c (Proc.devRef .tc b) := W4_of_ne m ρ c b hb
theorem W6_keep (b : Ref sig .tc) (hb : ∀ w, Pipeline.arrRef spec2 w ≠ b) :
    W6 m ρ c (no_index (Proc.devRef .tc b)) = W5 m ρ c (Proc.devRef .tc b) := W6_of_ne m ρ c b hb

/-- Reads a buffer back through the fold: through a host stretch to the operations' value of the contents before it (or to
    the same buffer before it, when no operation of the stretch writes it), through a region to the same buffer at the
    region's entry when it is none of the region's arrays. -/
local macro "walk_back" : tactic => `(tactic| (
  simp (disch := decide) only [W1, W3, W5, W7, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      W2_keep, W4_keep, W6_keep]))

/-! ## The arguments, as launched -/

abbrev a0 : S100000x128.Idx → EReal := m ((c : Thread nD τ).loc main_arg0)
abbrev a1 : S2x1600000.Idx → BitVec 32 := m ((c : Thread nD τ).loc main_arg1)
abbrev a2 : S64x128.Idx → EReal := m ((c : Thread nD τ).loc main_arg2)
abbrev a3 : S64.Idx → EReal := m ((c : Thread nD τ).loc main_arg3)
abbrev a4 : S64x64.Idx → EReal := m ((c : Thread nD τ).loc main_arg4)
abbrev a5 : S64.Idx → EReal := m ((c : Thread nD τ).loc main_arg5)
abbrev a6 : S64x64.Idx → EReal := m ((c : Thread nD τ).loc main_arg6)
abbrev a7 : S64x64.Idx → EReal := m ((c : Thread nD τ).loc main_arg7)
abbrev a8 : S64.Idx → EReal := m ((c : Thread nD τ).loc main_arg8)
abbrev a9 : S64x64.Idx → EReal := m ((c : Thread nD τ).loc main_arg9)
abbrev a10 : S32x64.Idx → EReal := m ((c : Thread nD τ).loc main_arg10)
abbrev a11 : S32.Idx → EReal := m ((c : Thread nD τ).loc main_arg11)
abbrev a12 : S32x64.Idx → EReal := m ((c : Thread nD τ).loc main_arg12)

/-! ## The hidden layers, as functions of the arguments -/

/-- The affine layer of the node features. -/
def h0 : S100000x64.Idx → EReal := Sage.affineLayer (a0 m c) (a2 m c) (fun q => a3 m c (ix1 q))
/-- The first activated layer. -/
def h1 : S100000x64.Idx → EReal :=
  Sage.activatedLayer (aggregate (a1 m c) (h0 m c)) (h0 m c) (a4 m c) (fun q => a5 m c (ix1 q)) (a6 m c) (Ideal.ofBits .f32 0x00000000#32)
/-- The second activated layer. -/
def h2 : S100000x64.Idx → EReal :=
  Sage.activatedLayer (aggregate (a1 m c) (h1 m c)) (h1 m c) (a7 m c) (fun q => a8 m c (ix1 q)) (a9 m c) (Ideal.ofBits .f32 0x00000000#32)
/-- The normalized last layer: the network's result. -/
def h3 : S100000x32.Idx → EReal :=
  Sage.normalizedLayer (aggregate (a1 m c) (h2 m c)) (h2 m c) (a10 m c) (fun q => a11 m c (ix1 q)) (a12 m c) (Ideal.ofBits .f32 0x2B8CBCCC#32)

/-! ## The edge data and the aggregation, as this program spells them -/

/-- The edges' source indices: row 0 of the edge array. -/
def srcK (e : IVec S2x1600000 32) : IVec S1600000 32 :=
  shapeCast S1600000 (extractStridedSlice S1x1600000 ![0, 0] e slices_S2x1600000_S1x1600000_0_0) shapeCasts_S1x1600000_S1600000
/-- The edges' destination indices: row 1 of the edge array. -/
def dstK (e : IVec S2x1600000 32) : IVec S1600000 32 :=
  shapeCast S1600000 (extractStridedSlice S1x1600000 ![1, 0] e slices_S2x1600000_S1x1600000_1_0) shapeCasts_S1x1600000_S1600000
/-- The inverse in-degrees as a column: one over the number of edges into each node, that number kept at least one. -/
def invK (e : IVec S2x1600000 32) : FVec Ideal S100000x1 .f32 :=
  broadcastInDim S100000x1 ![0] bcast_S100000_S100000x1_0
    (Host.divf (F := Ideal) (broadcastInDim S100000 ![] bcast_S_S100000 (constant (F := Ideal) S_ .f32 0x3F800000#32))
      (maximumf (F := Ideal)
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 (dstK e))
          (broadcastInDim S1600000 ![] bcast_S_S1600000 (constant (F := Ideal) S_ .f32 0x3F800000#32)))
        (broadcastInDim S100000 ![] bcast_S_S100000 (constant (F := Ideal) S_ .f32 0x3F800000#32))))
/-- The mean over incoming edges of the rows of `h`, from the three edge-data arrays. -/
def aggK (src dst : IVec S1600000 32) (inv : FVec Ideal S100000x1 .f32) (h : FVec Ideal S100000x64 .f32) : FVec Ideal S100000x64 .f32 :=
  mulf (F := Ideal)
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x64 ![0, 1] bcast_S100000x1_S100000x64_0_1 inv)

/-- The two programs' dimension records for the scatter-adds and the gather hold the same numbers. -/
theorem scatter1_eq : scatter_S100000_S1600000x1_S1600000_n_0_0_1 = Cert.ReferenceIdeal.scatter_S100000_S1600000x1_S1600000_n_0_0_1 := rfl
theorem scatter2_eq : scatter_S100000x64_S1600000x1_S1600000x64_1_0_0_1 = Cert.ReferenceIdeal.scatter_S100000x64_S1600000x1_S1600000x64_1_0_0_1 := rfl
theorem gather_eq : gather_S100000x64_S1600000x1_S1600000x64_1_0_n_n_0_1_164 = Cert.ReferenceIdeal.gather_S100000x64_S1600000x1_S1600000x64_1_0_n_n_0_1_164 := rfl

/-- This program's edge data are the whole-array program's stages of the same name. -/
theorem srcK_eq (e : IVec S2x1600000 32) : srcK e = Cert.ReferenceIdeal.Read.val_main_v1 (F := Ideal) e := by
  unfold srcK Cert.ReferenceIdeal.Read.val_main_v1 Cert.ReferenceIdeal.Read.val_main_v0; rfl
theorem dstK_eq (e : IVec S2x1600000 32) : dstK e = Cert.ReferenceIdeal.Read.val_main_v3 (F := Ideal) e := by
  unfold dstK Cert.ReferenceIdeal.Read.val_main_v3 Cert.ReferenceIdeal.Read.val_main_v2; rfl
theorem invK_eq (e : IVec S2x1600000 32) : invK e = Cert.ReferenceIdeal.Read.val_main_v12 (F := Ideal) e := by
  unfold invK
  rw [dstK_eq, scatter1_eq]
  unfold Cert.ReferenceIdeal.Read.val_main_v12 Cert.ReferenceIdeal.Read.val_main_v11 Cert.ReferenceIdeal.Read.val_main_v10 Cert.ReferenceIdeal.Read.val_main_cst_2 Cert.ReferenceIdeal.Read.val_main_v9 Cert.ReferenceIdeal.Read.val_main_v8 Cert.ReferenceIdeal.Read.val_main_cst_1
    Cert.ReferenceIdeal.Read.val_main_v7 Cert.ReferenceIdeal.Read.val_main_v5 Cert.ReferenceIdeal.Read.val_main_cst_0 Cert.ReferenceIdeal.Read.val_main_v6 Cert.ReferenceIdeal.Read.val_main_v4 Cert.ReferenceIdeal.Read.val_main_cst
  rfl

/-- And this program's aggregation of them is the whole-array program's `aggregate`. -/
theorem aggK_eq (e : IVec S2x1600000 32) (h : FVec Ideal S100000x64 .f32) : aggK (srcK e) (dstK e) (invK e) h = aggregate e h := by
  rw [srcK_eq, dstK_eq, invK_eq]
  unfold aggK
  rw [scatter2_eq, gather_eq]
  unfold aggregate Cert.ReferenceIdeal.Read.val_main_v28 Cert.ReferenceIdeal.Read.val_main_v26 Cert.ReferenceIdeal.Read.val_main_v25 Cert.ReferenceIdeal.Read.val_main_cst_4 Cert.ReferenceIdeal.Read.val_main_v23 Cert.ReferenceIdeal.Read.val_main_v22
    Cert.ReferenceIdeal.Read.val_main_v19 Cert.ReferenceIdeal.Read.val_main_v21 Cert.ReferenceIdeal.Read.val_main_v18 Cert.ReferenceIdeal.Read.val_main_v20 Cert.ReferenceIdeal.Read.val_main_c Cert.ReferenceIdeal.Read.val_main_c_3
  rfl

/-! ## The first region -/

/-- The first region finds the node features and the first weight matrix as launched. -/
theorem r0_x : V1 m ρ c main_arg0 = a0 m c := by
  show W1 m ρ c (Proc.devRef .tc main_arg0) = _
  walk_back <;> rfl
theorem r0_w : V1 m ρ c main_arg2 = a2 m c := by
  show W1 m ρ c (Proc.devRef .tc main_arg2) = _
  walk_back <;> rfl
/-- The bias reaches the region recast as a one-row matrix. -/
theorem r0_b : (fun q : Fin 64 => V1 m ρ c main_v13 (ix2 (0 : Fin 1) q)) = fun q => a3 m c (ix1 q) := by
  have e : V1 m ρ c main_v13 = shapeCast S1x64 (a3 m c) shapeCasts_S64_S1x64 := by
    show W1 m ρ c (Proc.devRef .tc main_v13) = _
    walk_back <;> rfl
  funext q
  rw [e]
  exact shapeCast_a_1a_apply _ _ 0 q

/-- The first region leaves the affine layer of the node features in its output array. -/
theorem r0_out : W2 m ρ c (Proc.devRef .tc main_v14) = h0 m c := by
  refine (W2_arr m ρ c 3).trans ?_
  rw [Layer0.arr (V1 m ρ) c]
  show Sage.affineLayer (V1 m ρ c main_arg0) (V1 m ρ c main_arg2) (fun q => V1 m ρ c main_v13 (ix2 (0 : Fin 1) q)) = _
  rw [r0_x, r0_w, r0_b]
  rfl

/-! ## The second region -/

/-- The aggregate the stretch before the region computes: of the affine layer's output, by the edge data. -/
theorem r1_agg : V3 m ρ c main_v26 = aggregate (a1 m c) (h0 m c) := by
  have e : W3 m ρ c (Proc.devRef .tc main_v26)
      = aggK (srcK (a1 m c)) (dstK (a1 m c)) (invK (a1 m c)) (W2 m ρ c (Proc.devRef .tc main_v14)) := by
    walk_back <;> rfl
  exact (e.trans (congrArg (aggK (srcK (a1 m c)) (dstK (a1 m c)) (invK (a1 m c))) (r0_out m ρ c))).trans (aggK_eq (a1 m c) (h0 m c))
/-- The region's own-features operand is the affine layer's output: the stretch does not write it. -/
theorem r1_skip : V3 m ρ c main_v14 = h0 m c := by
  show W3 m ρ c (Proc.devRef .tc main_v14) = _
  walk_back
  exact r0_out m ρ c
/-- The region finds its two weight matrices as launched. -/
theorem r1_wl : V3 m ρ c main_arg4 = a4 m c := by
  show W3 m ρ c (Proc.devRef .tc main_arg4) = _
  walk_back <;> rfl
theorem r1_wr : V3 m ρ c main_arg6 = a6 m c := by
  show W3 m ρ c (Proc.devRef .tc main_arg6) = _
  walk_back <;> rfl
/-- The bias reaches the region recast as a one-row matrix. -/
theorem r1_b : (fun q : Fin 64 => V3 m ρ c main_v27 (ix2 (0 : Fin 1) q)) = fun q => a5 m c (ix1 q) := by
  have e : V3 m ρ c main_v27 = shapeCast S1x64 (a5 m c) shapeCasts_S64_S1x64 := by
    show W3 m ρ c (Proc.devRef .tc main_v27) = _
    walk_back <;> rfl
  funext q
  rw [e]
  exact shapeCast_a_1a_apply _ _ 0 q

/-- The region leaves the first activated layer in its output array. -/
theorem r1_out : W4 m ρ c (Proc.devRef .tc main_v28) = h1 m c := by
  refine (W4_arr m ρ c 5).trans ?_
  rw [Layer1.arr (V3 m ρ) c]
  show Sage.activatedLayer (V3 m ρ c main_v26) (V3 m ρ c main_v14) (V3 m ρ c main_arg4) (fun q => V3 m ρ c main_v27 (ix2 (0 : Fin 1) q))
      (V3 m ρ c main_arg6) (Ideal.ofBits .f32 0x00000000#32) = _
  rw [r1_agg, r1_skip, r1_wl, r1_b, r1_wr]
  rfl

/-! ## The third region -/

/-- The aggregate the stretch before the region computes: of the first activated layer's output, by the edge data. -/
theorem r2_agg : V5 m ρ c main_v40 = aggregate (a1 m c) (h1 m c) := by
  have e : W5 m ρ c (Proc.devRef .tc main_v40)
      = aggK (srcK (a1 m c)) (dstK (a1 m c)) (invK (a1 m c)) (W4 m ρ c (Proc.devRef .tc main_v28)) := by
    walk_back <;> rfl
  exact (e.trans (congrArg (aggK (srcK (a1 m c)) (dstK (a1 m c)) (invK (a1 m c))) (r1_out m ρ c))).trans (aggK_eq (a1 m c) (h1 m c))
/-- The region's own-features operand is the first activated layer's output: the stretch does not write it. -/
theorem r2_skip : V5 m ρ c main_v28 = h1 m c := by
  show W5 m ρ c (Proc.devRef .tc main_v28) = _
  walk_back
  exact r1_out m ρ c
/-- The region finds its two weight matrices as launched. -/
theorem r2_wl : V5 m ρ c main_arg7 = a7 m c := by
  show W5 m ρ c (Proc.devRef .tc main_arg7) = _
  walk_back <;> rfl
theorem r2_wr : V5 m ρ c main_arg9 = a9 m c := by
  show W5 m ρ c (Proc.devRef .tc main_arg9) = _
  walk_back <;> rfl
/-- The bias reaches the region recast as a one-row matrix. -/
theorem r2_b : (fun q : Fin 64 => V5 m ρ c main_v41 (ix2 (0 : Fin 1) q)) = fun q => a8 m c (ix1 q) := by
  have e : V5 m ρ c main_v41 = shapeCast S1x64 (a8 m c) shapeCasts_S64_S1x64 := by
    show W5 m ρ c (Proc.devRef .tc main_v41) = _
    walk_back <;> rfl
  funext q
  rw [e]
  exact shapeCast_a_1a_apply _ _ 0 q

/-- The region leaves the second activated layer in its output array. -/
theorem r2_out : W6 m ρ c (Proc.devRef .tc main_v42) = h2 m c := by
  refine (W6_arr m ρ c 5).trans ?_
  rw [Layer2.arr (V5 m ρ) c]
  show Sage.activatedLayer (V5 m ρ c main_v40) (V5 m ρ c main_v28) (V5 m ρ c main_arg7) (fun q => V5 m ρ c main_v41 (ix2 (0 : Fin 1) q))
      (V5 m ρ c main_arg9) (Ideal.ofBits .f32 0x00000000#32) = _
  rw [r2_agg, r2_skip, r2_wl, r2_b, r2_wr]
  rfl

/-! ## The fourth region -/

/-- The aggregate the stretch before the region computes: of the second activated layer's output, by the edge data. -/
theorem r3_agg : V7 m ρ c main_v54 = aggregate (a1 m c) (h2 m c) := by
  have e : W7 m ρ c (Proc.devRef .tc main_v54)
      = aggK (srcK (a1 m c)) (dstK (a1 m c)) (invK (a1 m c)) (W6 m ρ c (Proc.devRef .tc main_v42)) := by
    walk_back <;> rfl
  exact (e.trans (congrArg (aggK (srcK (a1 m c)) (dstK (a1 m c)) (invK (a1 m c))) (r2_out m ρ c))).trans (aggK_eq (a1 m c) (h2 m c))
/-- The region's own-features operand is the second activated layer's output: the stretch does not write it. -/
theorem r3_skip : V7 m ρ c main_v42 = h2 m c := by
  show W7 m ρ c (Proc.devRef .tc main_v42) = _
  walk_back
  exact r2_out m ρ c
/-- The region finds its two weight matrices as launched. -/
theorem r3_wl : V7 m ρ c main_arg10 = a10 m c := by
  show W7 m ρ c (Proc.devRef .tc main_arg10) = _
  walk_back <;> rfl
theorem r3_wr : V7 m ρ c main_arg12 = a12 m c := by
  show W7 m ρ c (Proc.devRef .tc main_arg12) = _
  walk_back <;> rfl
/-- The bias reaches the region recast as a one-row matrix. -/
theorem r3_b : (fun q : Fin 32 => V7 m ρ c main_v55 (ix2 (0 : Fin 1) q)) = fun q => a11 m c (ix1 q) := by
  have e : V7 m ρ c main_v55 = shapeCast S1x32 (a11 m c) shapeCasts_S32_S1x32 := by
    show W7 m ρ c (Proc.devRef .tc main_v55) = _
    walk_back <;> rfl
  funext q
  rw [e]
  exact shapeCast_a_1a_apply _ _ 0 q

/-- The region leaves the normalized last layer in its output array. -/
theorem r3_out : W8 m ρ c (Proc.devRef .tc main_v56) = h3 m c := by
  refine (W8_arr m ρ c 5).trans ?_
  rw [Layer3.arr (V7 m ρ) c]
  show Sage.normalizedLayer (V7 m ρ c main_v54) (V7 m ρ c main_v42) (V7 m ρ c main_arg10) (fun q => V7 m ρ c main_v55 (ix2 (0 : Fin 1) q))
      (V7 m ρ c main_arg12) (Ideal.ofBits .f32 0x2B8CBCCC#32) = _
  rw [r3_agg, r3_skip, r3_wl, r3_b, r3_wr]
  rfl

/-! ## The result -/

/-- The result buffer at the last boundary holds the network of the thirteen arguments, in the whole-array program's own
    terms: the hidden layers above are its `net` spelt out. -/
theorem result : W8 m ρ c (Proc.devRef .tc main_v56)
    = Cert.ReferenceIdeal.Layers.net (a0 m c) (a1 m c) (a2 m c) (a3 m c) (a4 m c) (a5 m c) (a6 m c) (a7 m c) (a8 m c) (a9 m c) (a10 m c) (a11 m c) (a12 m c) :=
  (r3_out m ρ c).trans rfl

end Cert.KernelIdeal.Net

end
-- ==== Proof.lean ====
/-
  A three-layer mean-aggregating graph network on 100000 nodes and 1600000 edges, computed two ways, is one function of its
  thirteen arguments on the extended reals.

  The tiled program runs its four dense layers (an affine layer of the node features, two combine layers activated by
  `max · 0`, a last combine layer normalized row by row) as four regions over blocks of 20000 rows, with its operands cast to
  a narrower float format first; the whole-array program runs them as plain matrix products. Between the dense layers both
  programs aggregate neighbour features over the edges with the very same host operations.

  On the extended reals a change of float format is the identity and a matrix product is the textbook sum, so each tiled
  block holds exactly the rows of the whole-array layer it covers — every dense layer here is row-local — and the blocks tile
  the array. Layer by layer the two programs' intermediate arrays are the same function of the arguments; the shared
  aggregation is carried as one named function and never opened. No law of arithmetic is needed beyond reading the two
  spellings of each layer: the sums are the same sums term by term, so the precondition (finite inputs) is never used.

  The three frames are the generated ones (the reference's is its generated run with the result dropped); the idealization
  rewrote nothing, so there is nothing to preserve.
-/
import proofs.«150510_j50757923504416_1_alg».proof.Defs
import proofs.«150510_j50757923504416_1_alg».proof.Proof.Gen.Kernel
import proofs.«150510_j50757923504416_1_alg».proof.Proof.Gen.Kernel.Skeleton
import proofs.«150510_j50757923504416_1_alg».proof.Proof.Gen.Kernel.Launch
import proofs.«150510_j50757923504416_1_alg».proof.Proof.Gen.Kernel.Points
import proofs.«150510_j50757923504416_1_alg».proof.Proof.Gen.Kernel.Frame
import proofs.«150510_j50757923504416_1_alg».proof.Proof.Gen.KernelIdeal
import proofs.«150510_j50757923504416_1_alg».proof.Proof.Gen.KernelIdeal.Skeleton
import proofs.«150510_j50757923504416_1_alg».proof.Proof.Gen.KernelIdeal.Launch
import proofs.«150510_j50757923504416_1_alg».proof.Proof.Gen.KernelIdeal.Points
import proofs.«150510_j50757923504416_1_alg».proof.Proof.Gen.KernelIdeal.Frame
import proofs.«150510_j50757923504416_1_alg».proof.Proof.Gen.ReferenceIdeal
import proofs.«150510_j50757923504416_1_alg».proof.Proof.Gen.ReferenceIdeal.Run
import proofs.«150510_j50757923504416_1_alg».proof.Proof.Gen.ReferenceIdeal.Read
import proofs.«150510_j50757923504416_1_alg».proof.Proof.Gen.Pre_finite_inputs
import proofs.«150510_j50757923504416_1_alg».proof.Proof.KernelRun
import proofs.«150510_j50757923504416_1_alg».proof.Proof.KernelValue
import proofs.«150510_j50757923504416_1_alg».proof.Proof.RefLayers
import Idealize.ShloMosaic.Adequacy
import Idealize.ShloMosaic.Init

noncomputable section

namespace Cert.Proof

open Idealize.ShloMosaic Idealize.SL.Sem

/-- The tiled program as printed terminates and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The whole-array program's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the thirteen arguments, both programs end with the network of those arguments in their
    result buffers: the tiled one by following its run region by region, the whole-array one by reading its stages. -/
theorem algebraic : Cert.algebraic_KernelIdeal_ReferenceIdeal := by
  intro m ρ m' ρ' _ hagree
  refine ⟨fun c => Cert.KernelIdeal.Net.h3 m c, ?_, ?_⟩
  · exact (θ_run Cert.KernelIdeal.defs _ _).mono
      (fun r h c => ⟨(h c).1.trans (Cert.KernelIdeal.Net.r3_out m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5, g6, g7, g8, g9, g10, g11, g12⟩ := hagree c
    rw [Cert.ReferenceIdeal.Read.val_main_v84_eq, Cert.ReferenceIdeal.Layers.result_eq, g0, g1, g2, g3, g4, g5, g6, g7, g8, g9, g10, g11, g12]
    exact (Cert.KernelIdeal.Net.result m ρ c).symm.trans (Cert.KernelIdeal.Net.r3_out m ρ c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
